-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S2x1x1x2048 : Shape := ⟨4, ![2, 1, 1, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x1x2048x2048 : S_.BroadcastsInDim S2x1x2048x2048 (![] : Fin 0 → Fin S2x1x2048x2048.rank)
  reducesTo_S2x1x2048x2048_S_d0_1_2_3 : S2x1x2048x2048.ReducesTo [0, 1, 2, 3] S_
  bcast_S_S2x1x1x2048 : S_.BroadcastsInDim S2x1x1x2048 (![] : Fin 0 → Fin S2x1x1x2048.rank)
  reducesTo_S2x1x1x2048_S_d0_1_2_3 : S2x1x1x2048.ReducesTo [0, 1, 2, 3] S_

variable [Facts]

def fn_part1 {F : FTy → Type} [FloatOps F] (main_arg4 : FVec F S2x1x1x2048 .f32) (main_v13 : IVec S_ 1) (main_v16 : IVec S2x1x2048x2048 1) : IVec S_ 1 :=
  let main_c_5 : IVec S_ 1 := constantI S_ 1 1#1
  let main_v17 : IVec S_ 1 := (fun x v => Host.reduce IntOp.andi x v reducesTo_S2x1x2048x2048_S_d0_1_2_3 h_S_) main_v16 main_c_5
  let main_v18 : IVec S_ 1 := andi main_v13 main_v17
  let main_v19 : FVec F S2x1x1x2048 .f32 := Host.absf main_arg4
  let main_cst_6 : FVec F S_ .f32 := constant S_ .f32 0x7F800000#32
  let main_v20 : FVec F S2x1x1x2048 .f32 := broadcastInDim S2x1x1x2048 ![] bcast_S_S2x1x1x2048 main_cst_6
  let main_v21 : IVec S2x1x1x2048 1 := cmpf .olt main_v19 main_v20
  let main_c_7 : IVec S_ 1 := constantI S_ 1 1#1
  let main_v22 : IVec S_ 1 := (fun x v => Host.reduce IntOp.andi x v reducesTo_S2x1x1x2048_S_d0_1_2_3 h_S_) main_v21 main_c_7
  let main_v23 : IVec S_ 1 := andi main_v18 main_v22
  main_v23

def fn {F : FTy → Type} [FloatOps F] (main_arg0 : FVec F S2x16x2048x64 .f32) (main_arg1 : FVec F S2x16x2048x64 .f32) (main_arg2 : FVec F S2x16x2048x64 .f32) (main_arg3 : FVec F S2x1x2048x2048 .f32) (main_arg4 : FVec F S2x1x1x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x1x2048x2048 .f32 := Host.absf main_arg3
  let main_cst_4 : FVec F S_ .f32 := constant S_ .f32 0x7F800000#32
  let main_v15 : FVec F S2x1x2048x2048 .f32 := broadcastInDim S2x1x2048x2048 ![] bcast_S_S2x1x2048x2048 main_cst_4
  let main_v16 : IVec S2x1x2048x2048 1 := cmpf .olt main_v14 main_v15
  fn_part1 (F := F) main_arg4 main_v13 main_v16
-- ==== Kernel.lean ====
abbrev S2x16x2048x64 : Shape := ⟨4, ![2, 16, 2048, 64]⟩
abbrev S2x1x2048x2048 : Shape := ⟨4, ![2, 1, 2048, 2048]⟩
abbrev S2x1x1x2048 : Shape := ⟨4, ![2, 1, 1, 2048]⟩
abbrev S2x1x2048x1 : Shape := ⟨4, ![2, 1, 2048, 1]⟩
abbrev S_ : Shape := ⟨0, ![]⟩
abbrev S2x16x2048x1 : Shape := ⟨4, ![2, 16, 2048, 1]⟩
abbrev S2x16x2048x65 : Shape := ⟨4, ![2, 16, 2048, 65]⟩
abbrev S1x16x128x64 : Shape := ⟨4, ![1, 16, 128, 64]⟩
abbrev S1x16x2048x64 : Shape := ⟨4, ![1, 16, 2048, 64]⟩
abbrev S1x16x2048x65 : Shape := ⟨4, ![1, 16, 2048, 65]⟩
abbrev S1x1x128x2048 : Shape := ⟨4, ![1, 1, 128, 2048]⟩
abbrev S1x1x128x64 : Shape := ⟨4, ![1, 1, 128, 64]⟩
abbrev S128x64 : Shape := ⟨2, ![128, 64]⟩
abbrev S1x1x2048x64 : Shape := ⟨4, ![1, 1, 2048, 64]⟩
abbrev S2048x64 : Shape := ⟨2, ![2048, 64]⟩
abbrev S1x1x2048x65 : Shape := ⟨4, ![1, 1, 2048, 65]⟩
abbrev S2048x65 : Shape := ⟨2, ![2048, 65]⟩
abbrev S128x2048 : Shape := ⟨2, ![128, 2048]⟩
abbrev S128 : Shape := ⟨1, ![128]⟩
abbrev S128x1 : Shape := ⟨2, ![128, 1]⟩
abbrev S128x65 : Shape := ⟨2, ![128, 65]⟩

abbrev nBuf : Space → Nat
  | .hbm => 15
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .f32⟩
  | .hbm, ⟨4, _⟩ => ⟨S2x1x1x2048, .f32⟩
  | .hbm, ⟨5, _⟩ => ⟨S2x16x2048x64, .bf16⟩
  | .hbm, ⟨6, _⟩ => ⟨S2x16x2048x64, .bf16⟩
  | .hbm, ⟨7, _⟩ => ⟨S2x1x2048x1, .f32⟩
  | .hbm, ⟨8, _⟩ => ⟨S2x16x2048x64, .f32⟩
  | .hbm, ⟨9, _⟩ => ⟨S2x16x2048x64, .f32⟩
  | .hbm, ⟨10, _⟩ => ⟨S_, .f32⟩
  | .hbm, ⟨11, _⟩ => ⟨S2x16x2048x1, .f32⟩
  | .hbm, ⟨12, _⟩ => ⟨S2x16x2048x65, .f32⟩
  | .hbm, ⟨13, _⟩ => ⟨S2x16x2048x65, .bf16⟩
  | .hbm, ⟨14, _⟩ => ⟨S2x16x2048x64, .f32⟩
  | .local _ .vmem, ⟨0, _⟩ => ⟨S1x16x128x64, .bf16⟩
  | .local _ .vmem, ⟨1, _⟩ => ⟨S1x16x128x64, .bf16⟩
  | .local _ .vmem, ⟨2, _⟩ => ⟨S1x16x2048x64, .bf16⟩
  | .local _ .vmem, ⟨3, _⟩ => ⟨S1x16x2048x64, .bf16⟩
  | .local _ .vmem, ⟨4, _⟩ => ⟨S1x16x2048x65, .bf16⟩
  | .local _ .vmem, ⟨5, _⟩ => ⟨S1x16x2048x65, .bf16⟩
  | .local _ .vmem, ⟨6, _⟩ => ⟨S1x1x128x2048, .f32⟩
  | .local _ .vmem, ⟨7, _⟩ => ⟨S1x1x128x2048, .f32⟩
  | .local _ .vmem, ⟨8, _⟩ => ⟨S1x16x128x64, .f32⟩
  | .local _ .vmem, ⟨9, _⟩ => ⟨S1x16x128x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0 : Index := 0#32
  let c0_i32 : BitVec 32 := 0#32
  let c1_i32 : BitVec 32 := 1#32
  let arg7 : BitVec 32 := Scf.iv c0_i32 c1_i32 k0_t1
  let v1 : Index := Scalar.indexCast arg7
  let c0_1 : Index := 0#32
  let c0_2 : Index := 0#32
  ![0, v1.toNat, 0, 0]
def k0_off2 (k0_t1 : Fin k0_t1_loop.trips) : Fin 4 → Nat :=
  let c0_3 : Index := 0#32
  let c0_i32 : BitVec 32 := 0#32
  let c1_i32 : BitVec 32 := 1#32
  let arg7 : BitVec 32 := Scf.iv c0_i32 c1_i32 k0_t1
  let v6 : Index := Scalar.indexCast arg7
  let c0_4 : Index := 0#32
  let c0_5 : Index := 0#32
  ![0, v6.toNat, 0, 0]
def k0_off3 (k0_t1 : Fin k0_t1_loop.trips) : Fin 4 → Nat :=
  let c0_6 : Index := 0#32
  let c0_i32 : BitVec 32 := 0#32
  let c1_i32 : BitVec 32 := 1#32
  let arg7 : BitVec 32 := Scf.iv c0_i32 c1_i32 k0_t1
  let v9 : Index := Scalar.indexCast arg7
  let c0_7 : Index := 0#32
  let c0_8 : Index := 0#32
  ![0, v9.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x2048x65 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  transposes_S2x1x1x2048_S2x1x2048x1_0_1_3_2 : S2x1x1x2048.Transposes [0, 1, 3, 2] S2x1x2048x1
  bcast_S2x1x2048x1_S2x16x2048x64_0_1_2_3 : S2x1x2048x1.BroadcastsInDim S2x16x2048x64 (![0, 1, 2, 3] : Fin 4 → Fin S2x16x2048x64.rank)
  bcast_S_S2x16x2048x1 : S_.BroadcastsInDim S2x16x2048x1 (![] : Fin 0 → Fin S2x16x2048x1.rank)
  concatenates_S2x16x2048x64_S2x16x2048x1_S2x16x2048x65_d3 : Shape.Concatenates [S2x16x2048x64, S2x16x2048x1] S2x16x2048x65 3
  h_S1x1x128x64 : 0 < S1x1x128x64.numel
  shapeCasts_S1x1x128x64_S128x64 : S1x1x128x64.ShapeCasts S128x64
  h_S1x1x2048x64 : 0 < S1x1x2048x64.numel
  shapeCasts_S1x1x2048x64_S2048x64 : S1x1x2048x64.ShapeCasts S2048x64
  h_S1x1x2048x65 : 0 < S1x1x2048x65.numel
  shapeCasts_S1x1x2048x65_S2048x65 : S1x1x2048x65.ShapeCasts S2048x65
  inb_S1x1x128x2048_S1x1x128x2048_0_0_0_0 : ∀ a, (![0, 0, 0, 0] : Fin 4 → Nat) a + S1x1x128x2048.size a ≤ S1x1x128x2048.size a
  h_S1x1x128x2048 : 0 < S1x1x128x2048.numel
  shapeCasts_S1x1x128x2048_S128x2048 : S1x1x128x2048.ShapeCasts S128x2048
  reduces_S128x2048_S128 : S128x2048.Reduces [1] S128
  shapeCasts_S128_S128x1 : S128.ShapeCasts S128x1
  broadcasts_S128x1_S128x2048 : S128x1.Broadcasts S128x2048
  slices_S128x65_o0_64_S128x1 : S128x65.Slices ![0, 64] S128x1
  slices_S128x65_o0_0_S128x64 : S128x65.Slices ![0, 0] S128x64
  broadcasts_S128x1_S128x64 : S128x1.Broadcasts S128x64
  shapeCasts_S128x64_S1x1x128x64 : S128x64.ShapeCasts S1x1x128x64
  dot_S128x64_S2048x64_S128x2048_1_1_0_0_n_n_wf : DotDims.WF S128x64 S2048x64 S128x2048 [1] [1] [0] [0] [] []
  dot_S128x2048_S2048x65_S128x65_1_0_0_1_n_n_wf : DotDims.WF S128x2048 S2048x65 S128x65 [1] [0] [0] [1] [] []
  hrank0 : 0 < grid0.rank
  k0_t1_ok : k0_t1_loop.OK
  k0_off1_inb : ∀ k0_t1 : Fin k0_t1_loop.trips, ∀ a, (k0_off1 k0_t1) a + S1x1x128x64.size a ≤ S1x16x128x64.size a
  k0_off2_inb : ∀ k0_t1 : Fin k0_t1_loop.trips, ∀ a, (k0_off2 k0_t1) a + S1x1x2048x64.size a ≤ S1x16x2048x64.size a
  k0_off3_inb : ∀ k0_t1 : Fin k0_t1_loop.trips, ∀ a, (k0_off3 k0_t1) a + S1x1x2048x65.size a ≤ S1x16x2048x65.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x64.size a ≤ S2x16x2048x64.size a
  hwx0_0 : ∀ i : grid0.Coords, EltTy.bits .bf16 = 32 ∨ (Rect.block (s := S2x16x2048x64) S1x16x128x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S2x16x2048x64.size a
  hwx0_1 : ∀ i : grid0.Coords, EltTy.bits .bf16 = 32 ∨ (Rect.block (s := S2x16x2048x64) S1x16x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x2048x65.size a ≤ S2x16x2048x65.size a
  hwx0_2 : ∀ i : grid0.Coords, EltTy.bits .bf16 = 32 ∨ (Rect.block (s := S2x16x2048x65) S1x16x2048x65.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x2048.size a ≤ S2x1x2048x2048.size a
  hwx0_3 : ∀ i : grid0.Coords, EltTy.bits .f32 = 32 ∨ (Rect.block (s := S2x1x2048x2048) S1x1x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x64.size a ≤ S2x16x2048x64.size a
  hwx0_4 : ∀ i : grid0.Coords, EltTy.bits .f32 = 32 ∨ (Rect.block (s := S2x16x2048x64) S1x16x128x64.size (cc0_transform_4 i) (hinb0_4 i)).WholeWords (EltTy.packing .f32)

variable [Facts₀]

def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf
def dot_S128x2048_S2048x65_S128x65_1_0_0_1_n_n : DotDims S128x2048 S2048x65 S128x65 where
  lhsContracting := [1]
  rhsContracting := [0]
  lhsNonContracting := [0]
  rhsNonContracting := [1]
  lhsBatch := []
  rhsBatch := []
  wf := dot_S128x2048_S2048x65_S128x65_1_0_0_1_n_n_wf

abbrev win0_0 : Pipeline.Window sig grid0 :=
  Pipeline.Window.ofSpec (Memref.whole main_v0) S1x16x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x16x2048x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x16x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x1x1x2048 : Shape := ⟨4, ![2, 1, 1, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .f32⟩
  | .hbm, ⟨4, _⟩ => ⟨S2x1x1x2048, .f32⟩
  | .hbm, ⟨5, _⟩ => ⟨S2x16x2048x2048, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S2x1x1x2048_S2x16x2048x2048_0_1_2_3 : S2x1x1x2048.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibSoftmaxReal.lean ====
/-
  Real-number and extended-real facts both sides of the comparison use: coercions pushed through finite sums,
  quotients and the exponential; positivity of a sum of exponentials; the shift invariance of a softmax-weighted
  average; a sum over 32768 keys regrouped as 32 tiles of 1024; the maximum of finitely many reals is a real.
-/
import Idealize.ShloMosaic.PureOps.Ideal
import Mathlib.Analysis.SpecialFunctions.Exp
import Mathlib.Algebra.BigOperators.Fin
import Mathlib.Data.EReal.Basic

noncomputable section

namespace Cert.RealLemmas

open Idealize.ShloMosaic

/-- Over any finite set, the coercion of a real sum is the sum of the coercions: the empty sum is zero on both
    sides, and inserting one more key adds one more term, the coercion being additive. -/
theorem coe_sum_finset {K : Type} (S : Finset K) (f : K → ℝ) :
    (((∑ k ∈ S, f k) : ℝ) : EReal) = ∑ k ∈ S, ((f k : ℝ) : EReal) := by
  classical
  refine Finset.induction_on S ?_ ?_
  · rw [Finset.sum_empty, Finset.sum_empty, EReal.coe_zero]
  · intro a s ha ih
    rw [Finset.sum_insert ha, Finset.sum_insert ha, EReal.coe_add, ih]

/-- The coercion of a finite real sum is the sum of the coercions. -/
theorem coe_sum {K : Type} [Fintype K] (f : K → ℝ) : (((∑ k, f k) : ℝ) : EReal) = ∑ k, ((f k : ℝ) : EReal) :=
  coe_sum_finset Finset.univ f

/-- The ideal quotient of two reals with a nonzero divisor is the real quotient. -/
theorem div_coe (x y : ℝ) (hy : y ≠ 0) : Ideal.div (x : EReal) (y : EReal) = (((x / y) : ℝ) : EReal) := by
  rw [Ideal.div_coe hy, ← EReal.coe_mul, mul_one_div]

/-- The ideal exponential of a real is the real exponential. -/
theorem exp_coe (x : ℝ) : Ideal.exp (x : EReal) = ((Real.exp x : ℝ) : EReal) := rfl

/-- A nonempty finite sum of exponentials is positive. -/
theorem sum_exp_pos {K : Type} [Fintype K] [Nonempty K] (f : K → ℝ) : 0 < ∑ k, Real.exp (f k) :=
  Finset.sum_pos (fun k _ => Real.exp_pos (f k)) Finset.univ_nonempty

/-- Shift invariance: weights `exp (s k - M)` normalised by their sum average `v` exactly as the unshifted
    weights `exp (s k)` do, the common factor `exp (-M)` cancelling. -/
theorem softmax_shift {K : Type} [Fintype K] [Nonempty K] (s v : K → ℝ) (M : ℝ) :
    ∑ k, (Real.exp (s k - M) / ∑ j, Real.exp (s j - M)) * v k
      = (∑ k, Real.exp (s k) * v k) / ∑ k, Real.exp (s k) := by
  -- every shifted weight is the unshifted one times the common positive factor `exp (-M)`
  have hc : Real.exp (-M) ≠ 0 := (Real.exp_pos (-M)).ne'
  have hshift : ∀ k, Real.exp (s k - M) = Real.exp (s k) * Real.exp (-M) := fun k => by
    rw [sub_eq_add_neg, Real.exp_add]
  -- so the shifted normaliser is the unshifted one times the same factor
  have hden : ∑ j, Real.exp (s j - M) = (∑ j, Real.exp (s j)) * Real.exp (-M) := by
    rw [Finset.sum_mul]
    exact Finset.sum_congr rfl (fun j _ => hshift j)
  -- the factor cancels in each term, and the common denominator comes out of the sum
  rw [hden, Finset.sum_div]
  refine Finset.sum_congr rfl (fun k _ => ?_)
  rw [hshift k, mul_div_mul_right _ _ hc, div_mul_eq_mul_div]

/-- A sum over 32768 keys, taken tile by tile: 32 tiles of 1024 consecutive keys. -/
theorem sum_tiles (f : Fin 32768 → ℝ) :
    ∑ t : Fin 32, ∑ r : Fin 1024, f ⟨t.val * 1024 + r.val, by omega⟩ = ∑ k : Fin 32768, f k := by
  -- the double sum is a single sum over pairs (tile, offset) ...
  refine (Fintype.sum_prod_type'
    (fun (t : Fin 32) (r : Fin 1024) => f ⟨t.val * 1024 + r.val, by omega⟩)).symm.trans ?_
  -- ... and pairs correspond one to one to keys, the pair (t, r) to the key r + 1024 * t
  refine Fintype.sum_equiv (finProdFinEquiv : Fin 32 × Fin 1024 ≃ Fin (32 * 1024)) _ _ ?_
  rintro ⟨t, r⟩
  refine congrArg f (Fin.ext ?_)
  show t.val * 1024 + r.val = r.val + 1024 * t.val
  omega

/-- The running maximum from `⊥` over any finite family of reals is `⊥` or a real: it is `⊥` over the empty
    family, and one more real `x` turns `⊥` into `x` and a real `M` into the larger of `x` and `M`. -/
theorem fold_max_bot_or_coe {K : Type} (S : Finset K) (g : K → ℝ) :
    S.fold max (⊥ : EReal) (fun k => ((g k : ℝ) : EReal)) = ⊥
      ∨ ∃ M : ℝ, S.fold max (⊥ : EReal) (fun k => ((g k : ℝ) : EReal)) = (M : EReal) := by
  classical
  refine Finset.induction_on S ?_ ?_
  · exact Or.inl Finset.fold_empty
  · intro a s ha ih
    refine Or.inr ?_
    rw [Finset.fold_insert ha]
    rcases ih with h | ⟨M, h⟩
    · exact ⟨g a, by rw [h]; exact max_eq_left bot_le⟩
    · rcases le_total ((g a : ℝ) : EReal) (M : EReal) with hle | hle
      · exact ⟨M, by rw [h]; exact max_eq_right hle⟩
      · exact ⟨g a, by rw [h]; exact max_eq_left hle⟩

/-- Over a family with at least one member the running maximum is a real: split off one member `a`; the
    maximum over the rest is `⊥` or a real, and the larger of the real `g a` and either is a real. -/
theorem fold_max_insert_coe {K : Type} [DecidableEq K] (a : K) (s : Finset K) (ha : a ∉ s) (g : K → ℝ) :
    ∃ M : ℝ, (insert a s).fold max (⊥ : EReal) (fun k => ((g k : ℝ) : EReal)) = (M : EReal) := by
  rw [Finset.fold_insert ha]
  rcases fold_max_bot_or_coe s g with h | ⟨M, h⟩
  · exact ⟨g a, by rw [h]; exact max_eq_left bot_le⟩
  · rcases le_total ((g a : ℝ) : EReal) (M : EReal) with hle | hle
    · exact ⟨M, by rw [h]; exact max_eq_right hle⟩
    · exact ⟨g a, by rw [h]; exact max_eq_left hle⟩

/-- The running maximum from `⊥` over a nonempty finite family of reals is a real. -/
theorem fold_max_coe {n : ℕ} (f : Fin (n + 1) → ℝ) :
    ∃ M : ℝ, (Finset.univ : Finset (Fin (n + 1))).fold max (⊥ : EReal) (fun k => ((f k : ℝ) : EReal)) = (M : EReal) := by
  -- the whole index set is the index 0 together with the rest
  have huniv : (Finset.univ : Finset (Fin (n + 1))) = insert 0 (Finset.univ.erase 0) :=
    (Finset.insert_erase (Finset.mem_univ 0)).symm
  rw [huniv]
  exact fold_max_insert_coe 0 (Finset.univ.erase 0) (Finset.notMem_erase 0 Finset.univ) f

end Cert.RealLemmas

end
-- ==== Proof.RowLaw.lean ====
/-
  One query row of scaled dot-product attention on the extended reals, written the two ways the two programs
  compute it, and the law that joins them.

  The kernel scales the query by 1/8 before the product with the keys, weights the value rows (already multiplied
  by the sequence mask) by exp(score − row maximum), and divides by the same weights' product with a column of ones.
  The reference divides the product of query and keys by √64 = 8, normalises exp(score − row maximum) by its sum,
  multiplies by the sequence mask and only then takes the product with the value rows.

  For finite entries every quantity is a real number, the two scores are the same real, the sum of the weights is
  a positive real, and (∑ e·(v·m)) / ∑ e = ∑ (e / ∑ e)·m·v is the distributive law.
-/
import Idealize.ShloMosaic.PureOps.Ideal
import proofs.«426825_j22840636080983_3_alg».proof.Proof.LibSoftmaxReal

noncomputable section

namespace Cert.Attn

open Idealize.ShloMosaic

/-- The maximum of a row from −∞. -/
def rowMax {N : ℕ} (s : Fin N → EReal) : EReal := (Finset.univ : Finset (Fin N)).fold max ⊥ s

/-- The kernel's scores of one query row: the query scaled by `c`, times the keys, plus the additive mask. -/
def scoreK {D N : ℕ} (c : EReal) (q : Fin D → EReal) (kk : Fin N → Fin D → EReal) (mk : Fin N → EReal) : Fin N → EReal :=
  fun j => (∑ d, (q d * c) * kk j d) + mk j

/-- The reference's scores of one query row: the query times the keys, divided by `r`, plus the additive mask. -/
def scoreR {D N : ℕ} (r : EReal) (q : Fin D → EReal) (kk : Fin N → Fin D → EReal) (mk : Fin N → EReal) : Fin N → EReal :=
  fun j => Ideal.div (∑ d, q d * kk j d) r + mk j

/-- The kernel's output entry: the weights exp(s − max) against a value column `w`, over the same weights against
    the column `u` (the ones column). -/
def attnK {N : ℕ} (s w u : Fin N → EReal) : EReal :=
  Ideal.div (∑ j, Ideal.exp (s j - rowMax s) * w j) (∑ j, Ideal.exp (s j - rowMax s) * u j)

/-- The reference's output entry: the weights exp(s − max), each divided by `z` plus their sum and multiplied by
    the sequence mask `sq`, against the value column `v`. -/
def attnR {N : ℕ} (z : EReal) (s sq v : Fin N → EReal) : EReal :=
  ∑ j, (Ideal.div (Ideal.exp (s j - rowMax s)) (z + ∑ j', Ideal.exp (s j' - rowMax s)) * sq j) * v j

/-- For real scores `s`, real values `v` and a real sequence mask `sq`: the weighted values over the sum of the
    weights, and the normalised, masked weights against the values, are the same real number. -/
theorem attn_real_law {n : ℕ} (s v sq : Fin (n + 1) → ℝ) :
    attnK (fun j => ((s j : ℝ) : EReal)) (fun j => ((v j : ℝ) : EReal) * ((sq j : ℝ) : EReal)) (fun _ => ((1 : ℝ) : EReal))
    = attnR 0 (fun j => ((s j : ℝ) : EReal)) (fun j => ((sq j : ℝ) : EReal)) (fun j => ((v j : ℝ) : EReal)) := by
  -- the row maximum of real scores is a real
  obtain ⟨M, hM⟩ := RealLemmas.fold_max_coe s
  have hmax : rowMax (fun j => ((s j : ℝ) : EReal)) = (M : EReal) := hM
  unfold attnK attnR
  rw [hmax]
  have he : ∀ j, Ideal.exp (((s j : ℝ) : EReal) - (M : EReal)) = ((Real.exp (s j - M) : ℝ) : EReal) := fun j => by
    rw [← EReal.coe_sub]; rfl
  simp only [he]
  -- the sum of the weights is a positive real
  have hL : (∑ j, Real.exp (s j - M)) ≠ 0 := (RealLemmas.sum_exp_pos fun j => s j - M).ne'
  simp only [← EReal.coe_mul, mul_one, ← RealLemmas.coe_sum, zero_add]
  rw [RealLemmas.div_coe _ _ hL]
  simp only [RealLemmas.div_coe _ _ hL, ← EReal.coe_mul, ← RealLemmas.coe_sum]
  refine congrArg (fun x : ℝ => (x : EReal)) ?_
  rw [Finset.sum_div]
  exact Finset.sum_congr rfl fun j _ => by ring

/-- For real entries the kernel's row and the reference's row are the same extended real. -/
theorem attn_row_law {D n : ℕ} (q : Fin D → ℝ) (kk : Fin (n + 1) → Fin D → ℝ) (mk v sq : Fin (n + 1) → ℝ) :
    attnK (scoreK ((0.125 : ℝ) : EReal) (fun d => ((q d : ℝ) : EReal)) (fun j d => ((kk j d : ℝ) : EReal))
        (fun j => ((mk j : ℝ) : EReal)))
      (fun j => ((v j : ℝ) : EReal) * ((sq j : ℝ) : EReal)) (fun _ => ((1 : ℝ) : EReal))
    = attnR 0 (scoreR ((8 : ℝ) : EReal) (fun d => ((q d : ℝ) : EReal)) (fun j d => ((kk j d : ℝ) : EReal))
        (fun j => ((mk j : ℝ) : EReal)))
      (fun j => ((sq j : ℝ) : EReal)) (fun j => ((v j : ℝ) : EReal)) := by
  -- both scores are the same real number: scaling the query by 1/8 scales the sum of products by 1/8
  have hK : scoreK ((0.125 : ℝ) : EReal) (fun d => ((q d : ℝ) : EReal)) (fun j d => ((kk j d : ℝ) : EReal))
      (fun j => ((mk j : ℝ) : EReal)) = fun j => ((((∑ d, q d * kk j d) / 8 + mk j : ℝ)) : EReal) := by
    funext j
    unfold scoreK
    simp only [← EReal.coe_mul, ← RealLemmas.coe_sum, ← EReal.coe_add]
    refine congrArg (fun x : ℝ => (x : EReal)) (congrArg (· + mk j) ?_)
    rw [Finset.sum_div]
    exact Finset.sum_congr rfl fun d _ => by ring
  have hR : scoreR ((8 : ℝ) : EReal) (fun d => ((q d : ℝ) : EReal)) (fun j d => ((kk j d : ℝ) : EReal))
      (fun j => ((mk j : ℝ) : EReal)) = fun j => ((((∑ d, q d * kk j d) / 8 + mk j : ℝ)) : EReal) := by
    funext j
    unfold scoreR
    simp only [← EReal.coe_mul, ← RealLemmas.coe_sum]
    rw [RealLemmas.div_coe _ _ (by norm_num), ← EReal.coe_add]
  rw [hK, hR]
  exact attn_real_law (fun j => (∑ d, q d * kk j d) / 8 + mk j) v sq

end Cert.Attn

end
-- ==== Proof.LayoutAt.lean ====
/-
  Small layout facts read at an index given by coordinates: a block with two leading unit axes seen as a matrix and
  back, and the maximum of a matrix along its lanes as a fold over the lane index.
-/
import Idealize.ShloMosaic.Lib.Pipeline.Value
import Idealize.ShloMosaic.Lib.ValueIdx
import Idealize.ShloMosaic.PureOps.Ideal.Laws

noncomputable section

namespace Cert.Attn.Layout

open Idealize.ShloMosaic Idealize.ShloMosaic.ValueIdx

variable {α : Type}

/-- `[1, 1, a, b]` cast to `[a, b]` reads, at `(p, q)`, the operand at `(0, 0, p, q)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    rw [Nat.zero_mul, Nat.zero_add])

/-- `[a, b]` cast to `[1, 1, a, b]` reads, at `(u, u', p, q)`, the operand at `(p, q)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (p : Fin a) (q : Fin b) :
    shapeCast ⟨4, ![1, 1, a, b]⟩ x h (ix4 u u' p q) = x (ix2 p q) :=
  shapeCast_apply x h _ _ (by
    have hu : u.val = 0 := by omega
    have hu' : u'.val = 0 := by omega
    rw [Shape.rowMajor_val_four, Shape.rowMajor_val_two]
    show p.val * b + q.val = ((u.val * 1 + u'.val) * a + p.val) * b + q.val
    rw [hu, hu', Nat.zero_mul, Nat.zero_add])

/-- The index a reduction of `[a, b]` over its lanes puts back at row `p` and summand `j` is `(p, j)`. -/
theorem lift_lane {a b : ℕ} (h : (⟨2, ![a, b]⟩ : Shape).Reduces [1] ⟨1, ![a]⟩) (p : Fin a) (j : Fin b) :
    h.lift (ix1 p) j = ix2 p j :=
  funext fun ax => Fin.ext (by
    match ax with
    | ⟨0, _⟩ => rfl
    | ⟨1, _⟩ => rfl)

/-- A float maximum of `[a, b]` along its lanes, on the extended reals, at row `p`: the maximum, from the
    accumulator's value, of the entries `(p, j)`. -/
theorem lane_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun j => src (ix2 p j)) := by
  rw [Ideal.multiReduction_maximumf_single]
  refine congrArg (Finset.fold max _ · Finset.univ) (funext fun j => ?_)
  exact congrArg src (lift_lane h p j)

end Cert.Attn.Layout

end
-- ==== Proof.LibColumn.lean ====
/-
  Column vectors read at an index given by coordinates: a column `[a, 1]` stretched over `b` lanes, and a vector
  `[a]` or a row `[1, a]` stood up as the column `[a, 1]`. Each is the library's general lemma for the operation
  with the coordinate arithmetic done once, for indices written `ix1` / `ix2`.
-/
import Idealize.ShloMosaic.Lib.Pipeline.Value
import Idealize.ShloMosaic.Lib.ValueIdx

namespace Cert.LibColumn

open Idealize.ShloMosaic Idealize.ShloMosaic.ValueIdx

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to the column `[a, 1]` reads, at `(i, u)`, the row's entry `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

end Cert.LibColumn
-- ==== Proof.Consts.lean ====
/-
  The float constants the two programs spell, as the extended reals their bit patterns denote:
  the kernel's score scale 0.125 (a bf16 pattern), the reference's 64 under the square root and
  that root, the ones column's 1, and the two infinities.
-/
import Idealize.ShloMosaic.PureOps.Ideal

noncomputable section

namespace Cert.Attn.Consts

open Idealize.ShloMosaic

/-- The bf16 pattern 0x3E00 denotes 1/8. -/
theorem ofBits_eighth : Ideal.ofBits .bf16 0x3E00#16 = ((0.125 : ℝ) : EReal) := by
  simp [Ideal.ofBits, Ideal.ieee, -EReal.coe_mul]; norm_num

/-- The f32 pattern 0x42800000 denotes 64. -/
theorem ofBits_64 : Ideal.ofBits .f32 0x42800000#32 = ((64 : ℝ) : EReal) := by
  simp [Ideal.ofBits, Ideal.ieee, -EReal.coe_mul]; norm_num

/-- The f32 pattern 0x3F800000 denotes 1. -/
theorem ofBits_one : Ideal.ofBits .f32 0x3F800000#32 = ((1 : ℝ) : EReal) := by
  simp [Ideal.ofBits, Ideal.ieee, -EReal.coe_mul]; norm_num

/-- The f32 pattern of −∞ denotes the bottom of the extended reals. -/
theorem ofBits_neg_inf : Ideal.ofBits .f32 0xFF800000#32 = ⊥ := by simp [Ideal.ofBits, Ideal.ieee]

/-- The f32 pattern of +∞ denotes the top of the extended reals. -/
theorem ofBits_pos_inf : Ideal.ofBits .f32 0x7F800000#32 = ⊤ := by simp [Ideal.ofBits, Ideal.ieee]

/-- The f32 zero pattern denotes 0. -/
theorem ofBits_zero : Ideal.ofBits .f32 0x00000000#32 = 0 := by simp [Ideal.ofBits, Ideal.ieee]

/-- The square root of 64 is 8: 64 = 8². -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

end Cert.Attn.Consts

end
-- ==== Proof.Payload.lean ====
/-
  The value the kernel body stores for one head, read at an index.

  For one head the body holds a query block q (128 rows of 64), the keys k (2048 rows of 64), the augmented values
  (2048 rows of 65: 64 value columns and a last column) and the additive mask block (128 × 2048).  It forms the
  scores (q/8)·kᵀ + mask, subtracts each row's maximum, exponentiates, multiplies the weights with the augmented
  values, and divides the first 64 columns of the product by its last column.  Entry (r, d) of the stored block is
  therefore the row function `attnK` of row r's scores against value column d and the last column.
-/
import proofs.«426825_j22840636080983_3_alg».proof.Proof.Gen.KernelIdeal.Skeleton
import proofs.«426825_j22840636080983_3_alg».proof.Proof.RowLaw
import proofs.«426825_j22840636080983_3_alg».proof.Proof.LayoutAt
import proofs.«426825_j22840636080983_3_alg».proof.Proof.LibColumn
import proofs.«426825_j22840636080983_3_alg».proof.Proof.Consts
import Idealize.ShloMosaic.Lib.ValueLayout
import Idealize.ShloMosaic.Lib.ValueIdx
import Idealize.ShloMosaic.PureOps.Ideal.Laws

noncomputable section

namespace Cert.Attn.Payload

open Cert.KernelIdeal Cert.KernelIdeal.Gen Idealize.ShloMosaic Idealize.ShloMosaic.ValueIdx

/-! ## The product of the scaled queries with the keys: both operands contract their second axis -/

theorem lhs_qk_0 (i : S128x2048.Idx) (q : dot_S128x64_S2048x64_S128x2048_1_1_0_0_n_n.contr.Idx) :
    (dot_S128x64_S2048x64_S128x2048_1_1_0_0_n_n.lhsIdx i q 0).val = (i 0).val := by
  unfold DotDims.lhsIdx
  rw [dif_neg (show ¬(0 : Fin S128x64.rank) ∈ dot_S128x64_S2048x64_S128x2048_1_1_0_0_n_n.lhsBatch by decide), dif_pos (show (0 : Fin S128x64.rank) ∈ dot_S128x64_S2048x64_S128x2048_1_1_0_0_n_n.lhsNonContracting by decide)]
  rfl
theorem lhs_qk_1 (i : S128x2048.Idx) (q : dot_S128x64_S2048x64_S128x2048_1_1_0_0_n_n.contr.Idx) :
    (dot_S128x64_S2048x64_S128x2048_1_1_0_0_n_n.lhsIdx i q 1).val = (q ⟨0, by decide⟩).val :=
  dot_S128x64_S2048x64_S128x2048_1_1_0_0_n_n.lhsIdx_val_of_single rfl i q
theorem rhs_qk_0 (i : S128x2048.Idx) (q : dot_S128x64_S2048x64_S128x2048_1_1_0_0_n_n.contr.Idx) :
    (dot_S128x64_S2048x64_S128x2048_1_1_0_0_n_n.rhsIdx i q 0).val = (i 1).val := by
  unfold DotDims.rhsIdx
  rw [dif_neg (show ¬(0 : Fin S2048x64.rank) ∈ dot_S128x64_S2048x64_S128x2048_1_1_0_0_n_n.rhsBatch by decide), dif_pos (show (0 : Fin S2048x64.rank) ∈ dot_S128x64_S2048x64_S128x2048_1_1_0_0_n_n.rhsNonContracting by decide)]
  rfl
theorem rhs_qk_1 (i : S128x2048.Idx) (q : dot_S128x64_S2048x64_S128x2048_1_1_0_0_n_n.contr.Idx) :
    (dot_S128x64_S2048x64_S128x2048_1_1_0_0_n_n.rhsIdx i q 1).val = (q ⟨0, by decide⟩).val :=
  dot_S128x64_S2048x64_S128x2048_1_1_0_0_n_n.rhsIdx_val_of_single rfl i q

/-- Entry (p, j) of the first product is the sum over the 64 shared coordinates of row p of the left operand
    times row j of the right operand. -/
theorem qk_apply (l : FVec Ideal S128x64 .bf16) (r : FVec Ideal S2048x64 .bf16) (p : Fin 128) (j : Fin 2048) :
    matmul dot_S128x64_S2048x64_S128x2048_1_1_0_0_n_n none l r (constant S128x2048 .f32 0x00000000#32) (ix2 p j)
      = ∑ e : Fin 64, l (ix2 p e) * r (ix2 j e) := by
  refine (Ideal.matmul_constant_zero_apply dot_S128x64_S2048x64_S128x2048_1_1_0_0_n_n none l r (ix2 p j)).trans ?_
  rw [← Equiv.sum_comp (contrEquiv1 dot_S128x64_S2048x64_S128x2048_1_1_0_0_n_n 64 rfl rfl).symm]
  refine Finset.sum_congr rfl fun k _ => ?_
  have hk := contrEquiv1_symm_val dot_S128x64_S2048x64_S128x2048_1_1_0_0_n_n 64 rfl rfl k
  have el : dot_S128x64_S2048x64_S128x2048_1_1_0_0_n_n.lhsIdx (ix2 p j) ((contrEquiv1 dot_S128x64_S2048x64_S128x2048_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S128x64_S2048x64_S128x2048_1_1_0_0_n_n.rhsIdx (ix2 p j) ((contrEquiv1 dot_S128x64_S2048x64_S128x2048_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

/-! ## The product of the weights with the augmented values: an ordinary matrix product -/

theorem lhs_pv_0 (i : S128x65.Idx) (q : dot_S128x2048_S2048x65_S128x65_1_0_0_1_n_n.contr.Idx) :
    (dot_S128x2048_S2048x65_S128x65_1_0_0_1_n_n.lhsIdx i q 0).val = (i 0).val := by
  unfold DotDims.lhsIdx
  rw [dif_neg (show ¬(0 : Fin S128x2048.rank) ∈ dot_S128x2048_S2048x65_S128x65_1_0_0_1_n_n.lhsBatch by decide), dif_pos (show (0 : Fin S128x2048.rank) ∈ dot_S128x2048_S2048x65_S128x65_1_0_0_1_n_n.lhsNonContracting by decide)]
  rfl
theorem lhs_pv_1 (i : S128x65.Idx) (q : dot_S128x2048_S2048x65_S128x65_1_0_0_1_n_n.contr.Idx) :
    (dot_S128x2048_S2048x65_S128x65_1_0_0_1_n_n.lhsIdx i q 1).val = (q ⟨0, by decide⟩).val :=
  dot_S128x2048_S2048x65_S128x65_1_0_0_1_n_n.lhsIdx_val_of_single rfl i q
theorem rhs_pv_0 (i : S128x65.Idx) (q : dot_S128x2048_S2048x65_S128x65_1_0_0_1_n_n.contr.Idx) :
    (dot_S128x2048_S2048x65_S128x65_1_0_0_1_n_n.rhsIdx i q 0).val = (q ⟨0, by decide⟩).val :=
  dot_S128x2048_S2048x65_S128x65_1_0_0_1_n_n.rhsIdx_val_of_single rfl i q
theorem rhs_pv_1 (i : S128x65.Idx) (q : dot_S128x2048_S2048x65_S128x65_1_0_0_1_n_n.contr.Idx) :
    (dot_S128x2048_S2048x65_S128x65_1_0_0_1_n_n.rhsIdx i q 1).val = (i 1).val := by
  unfold DotDims.rhsIdx
  rw [dif_neg (show ¬(1 : Fin S2048x65.rank) ∈ dot_S128x2048_S2048x65_S128x65_1_0_0_1_n_n.rhsBatch by decide), dif_pos (show (1 : Fin S2048x65.rank) ∈ dot_S128x2048_S2048x65_S128x65_1_0_0_1_n_n.rhsNonContracting by decide)]
  rfl

/-- Entry (p, e) of the second product is the sum over the 2048 keys of the weight (p, j) times the augmented
    value (j, e). -/
theorem pv_apply (l : FVec Ideal S128x2048 .bf16) (r : FVec Ideal S2048x65 .bf16) (p : Fin 128) (e : Fin 65) :
    matmul dot_S128x2048_S2048x65_S128x65_1_0_0_1_n_n none l r (constant S128x65 .f32 0x00000000#32) (ix2 p e)
      = ∑ j : Fin 2048, l (ix2 p j) * r (ix2 j e) := by
  refine (Ideal.matmul_constant_zero_apply dot_S128x2048_S2048x65_S128x65_1_0_0_1_n_n none l r (ix2 p e)).trans ?_
  rw [← Equiv.sum_comp (contrEquiv1 dot_S128x2048_S2048x65_S128x65_1_0_0_1_n_n 2048 rfl rfl).symm]
  refine Finset.sum_congr rfl fun k _ => ?_
  have hk := contrEquiv1_symm_val dot_S128x2048_S2048x65_S128x65_1_0_0_1_n_n 2048 rfl rfl k
  have el : dot_S128x2048_S2048x65_S128x65_1_0_0_1_n_n.lhsIdx (ix2 p e) ((contrEquiv1 dot_S128x2048_S2048x65_S128x65_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S128x2048_S2048x65_S128x65_1_0_0_1_n_n.rhsIdx (ix2 p e) ((contrEquiv1 dot_S128x2048_S2048x65_S128x65_1_0_0_1_n_n 2048 rfl rfl).symm k) = ix2 k e := funext fun a => Fin.ext (by
    match a with
    | ⟨0, _⟩ => exact (rhs_pv_0 _ _).trans hk
    | ⟨1, _⟩ => exact rhs_pv_1 _ _)
  rw [el, er]

/-! ## The body's stages -/

/-- The scores of the head: the scaled query block times the keys, plus the mask block. -/
def scores (v2 : FVec Ideal S1x1x128x64 .bf16) (v7 : FVec Ideal S1x1x2048x64 .bf16) (v13 : FVec Ideal S1x1x128x2048 .f32) :
    FVec Ideal S128x2048 .f32 :=
  addf (matmul dot_S128x64_S2048x64_S128x2048_1_1_0_0_n_n none
      (mulf (shapeCast S128x64 v2 shapeCasts_S1x1x128x64_S128x64) (broadcast S128x64 (Scalar.ofBits .bf16 0x3E00#16)))
      (shapeCast S2048x64 v7 shapeCasts_S1x1x2048x64_S2048x64) (constant S128x2048 .f32 0x00000000#32))
    (shapeCast S128x2048 v13 shapeCasts_S1x1x128x2048_S128x2048)

/-- The weights: the exponential of the scores less their row maxima. -/
def weights (s : FVec Ideal S128x2048 .f32) : FVec Ideal S128x2048 .bf16 :=
  truncf .bf16 (exp (subf s (broadcastTo S128x2048
    (shapeCast S128x1 (multiReduction .maximumf [1] S128 s 0xFF800000#32 reduces_S128x2048_S128 (.inl rfl) rfl) shapeCasts_S128_S128x1)
    broadcasts_S128x1_S128x2048))) bitsLt_bf16_f32

/-- The weights times the augmented values. -/
def weighted (w : FVec Ideal S128x2048 .bf16) (v10 : FVec Ideal S1x1x2048x65 .bf16) : FVec Ideal S128x65 .f32 :=
  matmul dot_S128x2048_S2048x65_S128x65_1_0_0_1_n_n none w (shapeCast S2048x65 v10 shapeCasts_S1x1x2048x65_S2048x65) (constant S128x65 .f32 0x00000000#32)

/-- The stored block: the first 64 columns of the product over its last column. -/
def quotient (o : FVec Ideal S128x65 .f32) : FVec Ideal S1x1x128x64 .f32 :=
  shapeCast S1x1x128x64 (divf (extractStridedSlice S128x64 ![0, 0] o slices_S128x65_o0_0_S128x64)
    (broadcastTo S128x64 (extractStridedSlice S128x1 ![0, 64] o slices_S128x65_o0_64_S128x1) broadcasts_S128x1_S128x64))
    shapeCasts_S128x64_S1x1x128x64

/-- The body's stored value is the four stages composed. -/
theorem pay_eq (v2 : FVec Ideal S1x1x128x64 .bf16) (v7 : FVec Ideal S1x1x2048x64 .bf16) (v10 : FVec Ideal S1x1x2048x65 .bf16)
    (v13 : FVec Ideal S1x1x128x2048 .f32) :
    k0_pay1 (F := Ideal) v2 v7 v10 v13 = quotient (weighted (weights (scores v2 v7 v13)) v10) := rfl

/-- Score (p, j) is the kernel's row score of row p at key j. -/
theorem scores_apply (v2 : FVec Ideal S1x1x128x64 .bf16) (v7 : FVec Ideal S1x1x2048x64 .bf16) (v13 : FVec Ideal S1x1x128x2048 .f32)
    (p : Fin 128) (j : Fin 2048) :
    scores v2 v7 v13 (ix2 p j)
      = Attn.scoreK (Ideal.ofBits .bf16 0x3E00#16) (fun e : Fin 64 => v2 (ix4 (0 : Fin 1) (0 : Fin 1) p e))
          (fun (j' : Fin 2048) (e : Fin 64) => v7 (ix4 (0 : Fin 1) (0 : Fin 1) j' e))
          (fun j' : Fin 2048 => v13 (ix4 (0 : Fin 1) (0 : Fin 1) p j')) j := by
  unfold scores Attn.scoreK
  rw [addf_apply, qk_apply, Layout.shapeCast_11ab_ab_apply]
  refine congrArg (· + _) (Finset.sum_congr rfl fun e _ => ?_)
  rw [mulf_apply, Layout.shapeCast_11ab_ab_apply, Layout.shapeCast_11ab_ab_apply]
  rfl

/-- Weight (p, j) is the exponential of score (p, j) less the maximum of row p. -/
theorem weights_apply (s : FVec Ideal S128x2048 .f32) (p : Fin 128) (j : Fin 2048) :
    weights s (ix2 p j) = Ideal.exp (s (ix2 p j) - Attn.rowMax (fun j' : Fin 2048 => s (ix2 p j'))) := by
  have hm : broadcastTo S128x2048
      (shapeCast S128x1 (multiReduction .maximumf [1] S128 s 0xFF800000#32 reduces_S128x2048_S128 (.inl rfl) rfl) shapeCasts_S128_S128x1)
      broadcasts_S128x1_S128x2048 (ix2 p j) = Attn.rowMax (fun j' : Fin 2048 => s (ix2 p j')) := by
    rw [LibColumn.broadcastTo_a1_ab_apply, LibColumn.shapeCast_a_a1_apply]
    refine (Layout.lane_max_apply s _ reduces_S128x2048_S128 _ _ p).trans ?_
    rw [Consts.ofBits_neg_inf]
    rfl
  show Ideal.exp (s (ix2 p j) - broadcastTo S128x2048
      (shapeCast S128x1 (multiReduction .maximumf [1] S128 s 0xFF800000#32 reduces_S128x2048_S128 (.inl rfl) rfl) shapeCasts_S128_S128x1)
      broadcasts_S128x1_S128x2048 (ix2 p j)) = _
  rw [hm]

/-- Entry (p, e) of the product is the sum over the keys of the weights of row p against column e of the
    augmented values. -/
theorem weighted_apply (w : FVec Ideal S128x2048 .bf16) (v10 : FVec Ideal S1x1x2048x65 .bf16) (p : Fin 128) (e : Fin 65) :
    weighted w v10 (ix2 p e) = ∑ j : Fin 2048, w (ix2 p j) * v10 (ix4 (0 : Fin 1) (0 : Fin 1) j e) := by
  unfold weighted
  rw [pv_apply]
  exact Finset.sum_congr rfl fun j _ => by rw [Layout.shapeCast_11ab_ab_apply]

/-- Entry (r, d) of the stored block is the product's entry (r, d) over its entry (r, 64). -/
theorem quotient_apply (o : FVec Ideal S128x65 .f32) (u u' : Fin 1) (r : Fin 128) (d : Fin 64) :
    quotient o (ix4 u u' r d) = Ideal.div (o (ix2 r (⟨d.val, by omega⟩ : Fin 65))) (o (ix2 r (⟨64, by omega⟩ : Fin 65))) := by
  unfold quotient
  rw [Layout.shapeCast_ab_11ab_apply, divf_apply,
    slice2_axis1_apply 0 o slices_S128x65_o0_0_S128x64 r d (⟨d.val, by omega⟩ : Fin 65) (Nat.zero_add _).symm,
    LibColumn.broadcastTo_a1_ab_apply,
    slice2_axis1_apply 64 o slices_S128x65_o0_64_S128x1 r (0 : Fin 1) (⟨64, by omega⟩ : Fin 65) rfl]

/-- THE STORED VALUE AT AN INDEX: entry (r, d) of the head's block is the kernel's row function of row r's scores,
    value column d and the last column of the augmented values. -/
theorem pay_apply (v2 : FVec Ideal S1x1x128x64 .bf16) (v7 : FVec Ideal S1x1x2048x64 .bf16) (v10 : FVec Ideal S1x1x2048x65 .bf16)
    (v13 : FVec Ideal S1x1x128x2048 .f32) (u u' : Fin 1) (r : Fin 128) (d : Fin 64) :
    k0_pay1 (F := Ideal) v2 v7 v10 v13 (ix4 u u' r d)
      = Attn.attnK
          (Attn.scoreK (Ideal.ofBits .bf16 0x3E00#16) (fun e : Fin 64 => v2 (ix4 (0 : Fin 1) (0 : Fin 1) r e))
            (fun (j : Fin 2048) (e : Fin 64) => v7 (ix4 (0 : Fin 1) (0 : Fin 1) j e))
            (fun j : Fin 2048 => v13 (ix4 (0 : Fin 1) (0 : Fin 1) r j)))
          (fun j : Fin 2048 => v10 (ix4 (0 : Fin 1) (0 : Fin 1) j (⟨d.val, by omega⟩ : Fin 65)))
          (fun j : Fin 2048 => v10 (ix4 (0 : Fin 1) (0 : Fin 1) j (⟨64, by omega⟩ : Fin 65))) := by
  rw [pay_eq, quotient_apply, weighted_apply, weighted_apply]
  unfold Attn.attnK
  simp only [weights_apply, scores_apply]

end Cert.Attn.Payload

end
-- ==== Proof.Pieces.lean ====
/-
  What one grid point leaves in the output block.  The body runs over the 16 heads; the trip for head h loads
  head h of the query block, of the keys and of the augmented values, and the whole mask block, and stores one
  128 × 64 slab at head h of the output block.  So the 16 stored slabs are the restrictions of ONE function of the
  block index (u, h, r, d): the row function of query row (h, r), keys and values of head h, mask row r, column d.
-/
import proofs.«426825_j22840636080983_3_alg».proof.Proof.Gen.KernelIdeal.Frame
import proofs.«426825_j22840636080983_3_alg».proof.Proof.Payload

set_option maxRecDepth 16384

noncomputable section

namespace Cert.Attn.Pieces

open Cert.KernelIdeal Cert.KernelIdeal.Gen Idealize.ShloMosaic Idealize.ShloMosaic.TcCoe Idealize.SL.Sem
open Idealize.ShloMosaic.ValueIdx

/-- Entry (h, r, d) of the output block as a function of the four input blocks. -/
def blockAt (x0 : Vec Ideal S1x16x128x64 .bf16) (x1 : Vec Ideal S1x16x2048x64 .bf16) (x2 : Vec Ideal S1x16x2048x65 .bf16) (x3 : Vec Ideal S1x1x128x2048 .f32) (h : Fin 16) (r : Fin 128) (d : Fin 64) : EReal :=
  Attn.attnK
    (Attn.scoreK (Ideal.ofBits .bf16 0x3E00#16) (fun e : Fin 64 => x0 (ix4 (0 : Fin 1) h r e))
      (fun (j : Fin 2048) (e : Fin 64) => x1 (ix4 (0 : Fin 1) h j e))
      (fun j : Fin 2048 => x3 (ix4 (0 : Fin 1) (0 : Fin 1) r j)))
    (fun j : Fin 2048 => x2 (ix4 (0 : Fin 1) h j (⟨d.val, by omega⟩ : Fin 65)))
    (fun j : Fin 2048 => x2 (ix4 (0 : Fin 1) h j (⟨64, by omega⟩ : Fin 65)))

/-- The same at a block index. -/
def blockFn (x0 : Vec Ideal S1x16x128x64 .bf16) (x1 : Vec Ideal S1x16x2048x64 .bf16) (x2 : Vec Ideal S1x16x2048x65 .bf16) (x3 : Vec Ideal S1x1x128x2048 .f32) (y : S1x16x128x64.Idx) : EReal :=
  blockAt x0 x1 x2 x3 ⟨(y 1).val, (y 1).isLt⟩ ⟨(y 2).val, (y 2).isLt⟩ ⟨(y 3).val, (y 3).isLt⟩

/-! ## The loads of trip k read head k -/

theorem ld_query (x0 : Vec Ideal S1x16x128x64 .bf16) (k : Fin k0_t1_loop.trips) (hk : k.val < 16) (r : Fin 128) (e : Fin 64) :
    View.ld (Val := Elt Ideal) x0 (Rect.unit (s := S1x16x128x64) (k0_off1 k) S1x1x128x64.size (k0_off1_inb k)) (ix4 (0 : Fin 1) (0 : Fin 1) r e)
      = x0 (ix4 (0 : Fin 1) (⟨k.val, hk⟩ : Fin 16) r e) := by
  refine congrArg x0 (funext fun a => Fin.ext ?_)
  have ho := k0_off1_eq k
  match a with
  | ⟨0, _⟩ => show k0_off1 k 0 + 1 * 0 = 0; rw [ho]; rfl
  | ⟨1, _⟩ => show k0_off1 k 1 + 1 * 0 = k.val; rw [ho]; rfl
  | ⟨2, _⟩ => show k0_off1 k 2 + 1 * r.val = r.val; rw [ho]; show 0 + 1 * r.val = r.val; omega
  | ⟨3, _⟩ => show k0_off1 k 3 + 1 * e.val = e.val; rw [ho]; show 0 + 1 * e.val = e.val; omega

theorem ld_key (x1 : Vec Ideal S1x16x2048x64 .bf16) (k : Fin k0_t1_loop.trips) (hk : k.val < 16) (j : Fin 2048) (e : Fin 64) :
    View.ld (Val := Elt Ideal) x1 (Rect.unit (s := S1x16x2048x64) (k0_off2 k) S1x1x2048x64.size (k0_off2_inb k)) (ix4 (0 : Fin 1) (0 : Fin 1) j e)
      = x1 (ix4 (0 : Fin 1) (⟨k.val, hk⟩ : Fin 16) j e) := by
  refine congrArg x1 (funext fun a => Fin.ext ?_)
  have ho := k0_off2_eq k
  match a with
  | ⟨0, _⟩ => show k0_off2 k 0 + 1 * 0 = 0; rw [ho]; rfl
  | ⟨1, _⟩ => show k0_off2 k 1 + 1 * 0 = k.val; rw [ho]; rfl
  | ⟨2, _⟩ => show k0_off2 k 2 + 1 * j.val = j.val; rw [ho]; show 0 + 1 * j.val = j.val; omega
  | ⟨3, _⟩ => show k0_off2 k 3 + 1 * e.val = e.val; rw [ho]; show 0 + 1 * e.val = e.val; omega

theorem ld_value (x2 : Vec Ideal S1x16x2048x65 .bf16) (k : Fin k0_t1_loop.trips) (hk : k.val < 16) (j : Fin 2048) (e : Fin 65) :
    View.ld (Val := Elt Ideal) x2 (Rect.unit (s := S1x16x2048x65) (k0_off3 k) S1x1x2048x65.size (k0_off3_inb k)) (ix4 (0 : Fin 1) (0 : Fin 1) j e)
      = x2 (ix4 (0 : Fin 1) (⟨k.val, hk⟩ : Fin 16) j e) := by
  refine congrArg x2 (funext fun a => Fin.ext ?_)
  have ho := k0_off3_eq k
  match a with
  | ⟨0, _⟩ => show k0_off3 k 0 + 1 * 0 = 0; rw [ho]; rfl
  | ⟨1, _⟩ => show k0_off3 k 1 + 1 * 0 = k.val; rw [ho]; rfl
  | ⟨2, _⟩ => show k0_off3 k 2 + 1 * j.val = j.val; rw [ho]; show 0 + 1 * j.val = j.val; omega
  | ⟨3, _⟩ => show k0_off3 k 3 + 1 * e.val = e.val; rw [ho]; show 0 + 1 * e.val = e.val; omega

theorem ld_mask (x3 : Vec Ideal S1x1x128x2048 .f32) :
    View.ld (Val := Elt Ideal) x3 (Rect.unit (s := S1x1x128x2048) ![0, 0, 0, 0] S1x1x128x2048.size inb_S1x1x128x2048_S1x1x128x2048_0_0_0_0) = x3 :=
  View.ld_unit_zero (S := S1x1x128x2048) (funext fun a => by
    match a with
    | ⟨0, _⟩ => rfl
    | ⟨1, _⟩ => rfl
    | ⟨2, _⟩ => rfl
    | ⟨3, _⟩ => rfl) _ x3

variable (x0 : Vec Ideal S1x16x128x64 .bf16) (x1 : Vec Ideal S1x16x2048x64 .bf16) (x2 : Vec Ideal S1x16x2048x65 .bf16) (x3 : Vec Ideal S1x1x128x2048 .f32)

/-- The block function depends on its coordinates only. -/
theorem blockAt_congr {h h' : Fin 16} {r r' : Fin 128} {d d' : Fin 64} (eh : h = h') (er : r = r') (ed : d = d') :
    blockAt x0 x1 x2 x3 h r d = blockAt x0 x1 x2 x3 h' r' d' := by
  subst eh er ed; rfl

/-- The slab trip k stores sits at head k of the block. -/
theorem emb_coords (k : Fin k0_t1_loop.trips) (hk : k.val < 16) (u u' : Fin 1) (r : Fin 128) (d : Fin 64) :
    blockFn x0 x1 x2 x3 ((Rect.unit (s := S1x16x128x64) (k0_off1 k) S1x1x128x64.size (k0_off1_inb k)).emb (ix4 u u' r d))
      = blockAt x0 x1 x2 x3 ⟨k.val, hk⟩ r d := by
  have ho := k0_off1_eq k
  have hu' : u'.val = 0 := by omega
  unfold blockFn
  refine blockAt_congr x0 x1 x2 x3 (Fin.ext ?_) (Fin.ext ?_) (Fin.ext ?_)
  · show k0_off1 k 1 + 1 * u'.val = k.val
    rw [ho, hu']; rfl
  · show k0_off1 k 2 + 1 * r.val = r.val
    rw [ho]; show 0 + 1 * r.val = r.val; omega
  · show k0_off1 k 3 + 1 * d.val = d.val
    rw [ho]; show 0 + 1 * d.val = d.val; omega

/-- THE SLAB OF TRIP k: the stored value of the loads at head k is the block function on the slab. -/
theorem trip_slab (k : Fin k0_t1_loop.trips) (x : S1x1x128x64.Idx) :
    k0_pay1 (F := Ideal) (View.ld (Val := Elt Ideal) x0 (Rect.unit (s := S1x16x128x64) (k0_off1 k) S1x1x128x64.size (k0_off1_inb k)))
        (View.ld (Val := Elt Ideal) x1 (Rect.unit (s := S1x16x2048x64) (k0_off2 k) S1x1x2048x64.size (k0_off2_inb k)))
        (View.ld (Val := Elt Ideal) x2 (Rect.unit (s := S1x16x2048x65) (k0_off3 k) S1x1x2048x65.size (k0_off3_inb k)))
        (View.ld (Val := Elt Ideal) x3 (Rect.unit (s := S1x1x128x2048) ![0, 0, 0, 0] S1x1x128x2048.size inb_S1x1x128x2048_S1x1x128x2048_0_0_0_0)) x
      = blockFn x0 x1 x2 x3 ((Rect.unit (s := S1x16x128x64) (k0_off1 k) S1x1x128x64.size (k0_off1_inb k)).emb x) := by
  have hk : k.val < 16 := Nat.lt_of_lt_of_le k.isLt k0_t1_abs.2.1
  obtain ⟨u, u', r, d, rfl⟩ : ∃ (u u' : Fin 1) (r : Fin 128) (d : Fin 64), x = ix4 u u' r d := ⟨x 0, x 1, x 2, x 3, eq_ix4 x⟩
  rw [emb_coords x0 x1 x2 x3 k hk, Payload.pay_apply, ld_mask]
  unfold blockAt
  simp only [ld_query x0 k hk, ld_key x1 k hk, ld_value x2 k hk]

end Cert.Attn.Pieces

end
-- ==== Proof.RunValue.lean ====
/-
  The whole body at one grid point.  Its run's stores are the slabs of the 16 trips, most recent first; every slab
  agrees with the block function on its rectangle, and together the slabs cover the block: so what the point leaves
  in the output block IS the block function of its four input blocks.
-/
import proofs.«426825_j22840636080983_3_alg».proof.Proof.Pieces

set_option maxRecDepth 16384

noncomputable section

namespace Cert.Attn.RunValue

open Cert.KernelIdeal Cert.KernelIdeal.Gen Idealize.ShloMosaic Idealize.ShloMosaic.TcCoe Idealize.SL.Sem
open Idealize.ShloMosaic.ValueIdx

variable (c : Dev nD) (i : grid0.Coords) (arg2 : Memref sig .tc .vmem S1x16x128x64 .bf16) (harg2 : arg2.IsWhole) (arg3 : Memref sig .tc .vmem S1x16x2048x64 .bf16) (harg3 : arg3.IsWhole) (arg4 : Memref sig .tc .vmem S1x16x2048x65 .bf16) (harg4 : arg4.IsWhole) (arg5 : Memref sig .tc .vmem S1x1x128x2048 .f32) (harg5 : arg5.IsWhole) (arg6 : Memref sig .tc .vmem S1x16x128x64 .f32) (harg6 : arg6.IsWhole)
variable (x0 : Vec Ideal S1x16x128x64 .bf16) (x1 : Vec Ideal S1x16x2048x64 .bf16) (x2 : Vec Ideal S1x16x2048x65 .bf16) (x3 : Vec Ideal S1x1x128x2048 .f32)

/-- The one slab trip k stores is the block function on its rectangle. -/
theorem trip_agrees (k : Fin k0_t1_loop.trips) :
    ∀ p ∈ tripL_k0_t1 (F := Ideal) Variants.none c none i arg2 harg2 arg3 harg3 arg4 harg4 arg5 harg5 arg6 harg6 (harg2.unread x0) (harg3.unread x1) (harg4.unread x2) (harg5.unread x3) k,
      ∀ x : p.1.shape.Idx, p.2 x = Pieces.blockFn x0 x1 x2 x3 (p.1.emb x) := by
  intro p hp
  unfold tripL_k0_t1 trip_k0_t1 at hp
  dsimp only at hp
  rw [List.mem_singleton] at hp
  subst hp
  intro x
  simp only [View.readAt_eq_ld, harg2.read_unread, harg3.read_unread, harg4.read_unread, harg5.read_unread]
  exact Pieces.trip_slab x0 x1 x2 x3 k x

/-- Every slab of the first n trips is the block function on its rectangle. -/
theorem pb_agrees : ∀ n : ℕ, ∀ p ∈ pb_k0_t1 (F := Ideal) Variants.none c none i arg2 harg2 arg3 harg3 arg4 harg4 arg5 harg5 arg6 harg6 (harg2.unread x0) (harg3.unread x1) (harg4.unread x2) (harg5.unread x3) n,
      ∀ x : p.1.shape.Idx, p.2 x = Pieces.blockFn x0 x1 x2 x3 (p.1.emb x)
  | 0 => fun p hp => by
    rw [pb_k0_t1.eq_1] at hp
    exact absurd hp List.not_mem_nil
  | n + 1 => fun p hp => by
    rw [pb_k0_t1.eq_2] at hp
    unfold pb_k0_t1Step at hp
    split at hp
    · rcases List.mem_append.mp hp with h | h
      · exact trip_agrees c i arg2 harg2 arg3 harg3 arg4 harg4 arg5 harg5 arg6 harg6 x0 x1 x2 x3 _ p h
      · exact pb_agrees n p h
    · exact pb_agrees n p hp

/-- WHAT A GRID POINT LEAVES in the output block: the block function of its input blocks. -/
theorem out_block : out0_A_4 c i arg2 harg2 arg3 harg3 arg4 harg4 arg5 harg5 arg6 harg6 x0 x1 x2 x3 = Pieces.blockFn x0 x1 x2 x3 := by
  funext y
  unfold out0_A_4
  refine View.read_writes_apply_of_pieces _ _ (Pieces.blockFn x0 x1 x2 x3) _ ?_ y
    (cover0_A_4 c i arg2 harg2 arg3 harg3 arg4 harg4 arg5 harg5 arg6 harg6 x0 x1 x2 x3 y)
  have hL : (kernelRun0_A c i arg2 harg2 arg3 harg3 arg4 harg4 arg5 harg5 arg6 harg6 x0 x1 x2 x3).1
      = pb_k0_t1 (F := Ideal) Variants.none c none i arg2 harg2 arg3 harg3 arg4 harg4 arg5 harg5 arg6 harg6 (harg2.unread x0) (harg3.unread x1) (harg4.unread x2) (harg5.unread x3) (Scf.trips (0#32) (Scalar.addi 0#32 16#32) 1#32) := by
    unfold kernelRun0_A
    rfl
  rw [hL]
  exact pb_agrees c i arg2 harg2 arg3 harg3 arg4 harg4 arg5 harg5 arg6 harg6 x0 x1 x2 x3 _

end Cert.Attn.RunValue

end
-- ==== Proof.HostPrefix.lean ====
/-
  What the region finds in the arrays its windows stage.  The host's conversions to bf16 are the identity on the
  extended reals, so the query and key arrays are the arguments themselves; the augmented value array is the value
  argument times the sequence mask (moved to the key axis and stretched over heads and columns) with a column of
  ones appended; the mask array is the argument, untouched.
-/
import proofs.«426825_j22840636080983_3_alg».proof.Proof.Gen.KernelIdeal.Frame
import Idealize.ShloMosaic.Lib.StableHlo.Run
import Idealize.ShloMosaic.Lib.Pipeline.Value
import Idealize.ShloMosaic.Lib.ValueIdx

noncomputable section

namespace Cert.Attn.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged query array is the first argument. -/
theorem V_query (c : Dev nD) :
    (V m c main_v0 : S2x16x2048x64.Idx → EReal) = m ((c : Thread nD τ).loc main_arg0) := by
  dsimp only [Gen.V, Gen.hostOps0]
  after_results
  rfl

/-- The staged key array is the third argument. -/
theorem V_key (c : Dev nD) :
    (V m c main_v1 : S2x16x2048x64.Idx → EReal) = m ((c : Thread nD τ).loc main_arg2) := by
  dsimp only [Gen.V, Gen.hostOps0]
  after_results
  rfl

/-- The staged augmented value array, as the host operations compute it. -/
theorem V_value (c : Dev nD) :
    (V m c main_v7 : S2x16x2048x65.Idx → EReal)
      = concatenate S2x16x2048x65 3
          [⟨S2x16x2048x64, mulf (m ((c : Thread nD τ).loc main_arg1))
              (broadcastInDim S2x16x2048x64 ![0, 1, 2, 3] bcast_S2x1x2048x1_S2x16x2048x64_0_1_2_3
                (transpose S2x1x2048x1 [0, 1, 3, 2] (m ((c : Thread nD τ).loc main_arg4)) transposes_S2x1x1x2048_S2x1x2048x1_0_1_3_2))⟩,
           ⟨S2x16x2048x1, broadcastInDim S2x16x2048x1 ![] bcast_S_S2x16x2048x1 (constant (F := Ideal) S_ .f32 0x3F800000#32)⟩]
          concatenates_S2x16x2048x64_S2x16x2048x1_S2x16x2048x65_d3 := by
  dsimp only [Gen.V, Gen.hostOps0]
  after_results
  rfl

/-! ## The augmented value array at an index -/

/-- The sequence mask moved to the key axis and stretched over heads and columns reads, at (b, h, j, d), the mask
    of batch b at key j. -/
theorem seq_at (A4 : S2x1x1x2048.Idx → EReal) (b : Fin 2) (h : Fin 16) (j : Fin 2048) (d : Fin 64) :
    broadcastInDim S2x16x2048x64 ![0, 1, 2, 3] bcast_S2x1x2048x1_S2x16x2048x64_0_1_2_3
        (transpose S2x1x2048x1 [0, 1, 3, 2] A4 transposes_S2x1x1x2048_S2x1x2048x1_0_1_3_2) (ix4 b h j d)
      = A4 (ix4 b (0 : Fin 1) (0 : Fin 1) j) := by
  refine (broadcastInDim_apply _ bcast_S2x1x2048x1_S2x16x2048x64_0_1_2_3 _ (ix4 b h j d) (ix4 b (0 : Fin 1) j (0 : Fin 1)) (fun a => ?_)).trans ?_
  · match a with
    | ⟨0, _⟩ => show b.val = if (2 : Nat) = 1 then 0 else b.val; rw [if_neg (by decide)]
    | ⟨1, _⟩ => show 0 = if (1 : Nat) = 1 then 0 else h.val; rw [if_pos rfl]
    | ⟨2, _⟩ => show j.val = if (2048 : Nat) = 1 then 0 else j.val; rw [if_neg (by decide)]
    | ⟨3, _⟩ => show 0 = if (1 : Nat) = 1 then 0 else d.val; rw [if_pos rfl]
  · refine transpose_apply _ A4 transposes_S2x1x1x2048_S2x1x2048x1_0_1_3_2 _ (ix4 b (0 : Fin 1) (0 : Fin 1) j) (fun a => ?_)
    match a with
    | ⟨0, _⟩ => rfl
    | ⟨1, _⟩ => rfl
    | ⟨2, _⟩ => rfl
    | ⟨3, _⟩ => rfl

/-- A value column of the augmented array: the value times the sequence mask of its key. -/
theorem value_at (A1 : S2x16x2048x64.Idx → EReal) (A4 : S2x1x1x2048.Idx → EReal) (b : Fin 2) (h : Fin 16) (j : Fin 2048) (d : Fin 64) :
    concatenate S2x16x2048x65 3
        [⟨S2x16x2048x64, mulf (F := Ideal) (φ := .f32) A1
            (broadcastInDim S2x16x2048x64 ![0, 1, 2, 3] bcast_S2x1x2048x1_S2x16x2048x64_0_1_2_3
              (transpose S2x1x2048x1 [0, 1, 3, 2] A4 transposes_S2x1x1x2048_S2x1x2048x1_0_1_3_2))⟩,
         ⟨S2x16x2048x1, broadcastInDim S2x16x2048x1 ![] bcast_S_S2x16x2048x1 (constant (F := Ideal) S_ .f32 0x3F800000#32)⟩]
        concatenates_S2x16x2048x64_S2x16x2048x1_S2x16x2048x65_d3 (ix4 b h j (⟨d.val, by omega⟩ : Fin 65))
      = A1 (ix4 b h j d) * A4 (ix4 b (0 : Fin 1) (0 : Fin 1) j) := by
  refine (concatenate_pair_apply_left (t := S2x16x2048x65) (s₁ := S2x16x2048x64) (s₂ := S2x16x2048x1) (3 : Fin 4) _ _
    concatenates_S2x16x2048x64_S2x16x2048x1_S2x16x2048x65_d3 (ix4 b h j (⟨d.val, by omega⟩ : Fin 65)) rfl (ix4 b h j d) (fun a => ?_)).trans ?_
  · match a with
    | ⟨0, _⟩ => rfl
    | ⟨1, _⟩ => rfl
    | ⟨2, _⟩ => rfl
    | ⟨3, _⟩ => rfl
  · rw [mulf_apply, seq_at]

/-- The last column of the augmented array: one. -/
theorem ones_at (A1 : S2x16x2048x64.Idx → EReal) (A4 : S2x1x1x2048.Idx → EReal) (b : Fin 2) (h : Fin 16) (j : Fin 2048) :
    concatenate S2x16x2048x65 3
        [⟨S2x16x2048x64, mulf (F := Ideal) (φ := .f32) A1
            (broadcastInDim S2x16x2048x64 ![0, 1, 2, 3] bcast_S2x1x2048x1_S2x16x2048x64_0_1_2_3
              (transpose S2x1x2048x1 [0, 1, 3, 2] A4 transposes_S2x1x1x2048_S2x1x2048x1_0_1_3_2))⟩,
         ⟨S2x16x2048x1, broadcastInDim S2x16x2048x1 ![] bcast_S_S2x16x2048x1 (constant (F := Ideal) S_ .f32 0x3F800000#32)⟩]
        concatenates_S2x16x2048x64_S2x16x2048x1_S2x16x2048x65_d3 (ix4 b h j (⟨64, by omega⟩ : Fin 65))
      = Ideal.ofBits .f32 0x3F800000#32 := by
  refine (concatenate_pair_apply_right (t := S2x16x2048x65) (s₁ := S2x16x2048x64) (s₂ := S2x16x2048x1) (3 : Fin 4) _ _
    concatenates_S2x16x2048x64_S2x16x2048x1_S2x16x2048x65_d3 (ix4 b h j (⟨64, by omega⟩ : Fin 65)) rfl rfl
    (ix4 b h j (0 : Fin 1)) (fun a ha => ?_) rfl).trans rfl
  match a with
  | ⟨0, _⟩ => rfl
  | ⟨1, _⟩ => rfl
  | ⟨2, _⟩ => rfl
  | ⟨3, _⟩ => exact absurd rfl ha

end Cert.Attn.Host

end
-- ==== Proof.Spec.lean ====
/-
  The result array as one function of the five argument arrays, written the kernel's way and the reference's way,
  entry (b, h, q, d) by entry; and the statement that for real arguments the two are the same array.
-/
import proofs.«426825_j22840636080983_3_alg».proof.Proof.RowLaw
import proofs.«426825_j22840636080983_3_alg».proof.Proof.Consts
import Idealize.ShloMosaic.Lib.ValueIdx

noncomputable section

namespace Cert.Attn.Spec

open Idealize.ShloMosaic Idealize.ShloMosaic.ValueIdx

/-- Queries, keys, values and the result: batch × head × position × feature. -/
abbrev SQ : Shape := ⟨4, ![2, 16, 2048, 64]⟩
/-- The additive mask: batch × 1 × query position × key position. -/
abbrev SM : Shape := ⟨4, ![2, 1, 2048, 2048]⟩
/-- The sequence mask: batch × 1 × 1 × key position. -/
abbrev SS : Shape := ⟨4, ![2, 1, 1, 2048]⟩

variable (Q Vv K : SQ.Idx → EReal) (M : SM.Idx → EReal) (Sq : SS.Idx → EReal)

/-- Entry (b, h, q, d) the kernel's way: the values are multiplied by the sequence mask beforehand, and the
    normaliser is the weights' product with a column of ones. -/
def kernelAt (b : Fin 2) (h : Fin 16) (q : Fin 2048) (d : Fin 64) : EReal :=
  Attn.attnK
    (Attn.scoreK (Ideal.ofBits .bf16 0x3E00#16) (fun e : Fin 64 => Q (ix4 b h q e))
      (fun (j : Fin 2048) (e : Fin 64) => K (ix4 b h j e)) (fun j : Fin 2048 => M (ix4 b (0 : Fin 1) q j)))
    (fun j : Fin 2048 => Vv (ix4 b h j d) * Sq (ix4 b (0 : Fin 1) (0 : Fin 1) j))
    (fun _ : Fin 2048 => Ideal.ofBits .f32 0x3F800000#32)

/-- The kernel's result array. -/
def kernelFn : SQ.Idx → EReal := fun i =>
  kernelAt Q Vv K M Sq ⟨(i 0).val, (i 0).isLt⟩ ⟨(i 1).val, (i 1).isLt⟩ ⟨(i 2).val, (i 2).isLt⟩ ⟨(i 3).val, (i 3).isLt⟩

/-- Entry (b, h, q, d) the reference's way. -/
def refAt (b : Fin 2) (h : Fin 16) (q : Fin 2048) (d : Fin 64) : EReal :=
  Attn.attnR (Ideal.ofBits .f32 0x00000000#32)
    (Attn.scoreR (Ideal.sqrt (Ideal.ofBits .f32 0x42800000#32)) (fun e : Fin 64 => Q (ix4 b h q e))
      (fun (j : Fin 2048) (e : Fin 64) => K (ix4 b h j e)) (fun j : Fin 2048 => M (ix4 b (0 : Fin 1) q j)))
    (fun j : Fin 2048 => Sq (ix4 b (0 : Fin 1) (0 : Fin 1) j)) (fun j : Fin 2048 => Vv (ix4 b h j d))

/-- For real arguments the two ways give the same entry: the constants are 1/8, √64 = 8, 1 and 0, and the rest is
    the row law. -/
theorem kernelAt_eq_refAt (hQ : ∀ i, ∃ r : ℝ, Q i = (r : EReal)) (hV : ∀ i, ∃ r : ℝ, Vv i = (r : EReal))
    (hK : ∀ i, ∃ r : ℝ, K i = (r : EReal)) (hM : ∀ i, ∃ r : ℝ, M i = (r : EReal)) (hS : ∀ i, ∃ r : ℝ, Sq i = (r : EReal))
    (b : Fin 2) (h : Fin 16) (q : Fin 2048) (d : Fin 64) :
    kernelAt Q Vv K M Sq b h q d = refAt Q Vv K M Sq b h q d := by
  choose q' hq' using hQ
  choose v' hv' using hV
  choose k' hk' using hK
  choose m' hm' using hM
  choose s' hs' using hS
  unfold kernelAt refAt
  simp only [hq', hv', hk', hm', hs', Consts.ofBits_eighth, Consts.ofBits_one, Consts.ofBits_zero, Consts.ofBits_64,
    Consts.sqrt_64]
  exact Attn.attn_row_law (fun e => q' (ix4 b h q e)) (fun j e => k' (ix4 b h j e)) (fun j => m' (ix4 b (0 : Fin 1) q j))
    (fun j => v' (ix4 b h j d)) (fun j => s' (ix4 b (0 : Fin 1) (0 : Fin 1) j))

end Cert.Attn.Spec

end
-- ==== Proof.Blocks.lean ====
/-
  From blocks to the array.  Grid point t = (b, qi) stages the query block (b, all heads, rows 128·qi …, all
  features), all keys and augmented values of batch b, and the mask block (b, rows 128·qi …, all keys), and writes
  back output block (b, all heads, rows 128·qi …).  What it writes back is the kernel's result array restricted to
  that block; the 32 blocks cover the array; so after the run the result array is the kernel's result function of
  the arguments.
-/
import proofs.«426825_j22840636080983_3_alg».proof.Proof.Gen.KernelIdeal.Value
import proofs.«426825_j22840636080983_3_alg».proof.Proof.RunValue
import proofs.«426825_j22840636080983_3_alg».proof.Proof.HostPrefix
import proofs.«426825_j22840636080983_3_alg».proof.Proof.Spec

set_option maxRecDepth 16384

noncomputable section

namespace Cert.Attn.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The kernel's result function of the argument arrays as launched. -/
abbrev result (c : Dev nD) : S2x16x2048x64.Idx → EReal :=
  Spec.kernelFn (m ((c : Thread nD τ).loc main_arg0)) (m ((c : Thread nD τ).loc main_arg1)) (m ((c : Thread nD τ).loc main_arg2)) (m ((c : Thread nD τ).loc main_arg3)) (m ((c : Thread nD τ).loc main_arg4))

/-- The value and sequence-mask arguments as launched, at their literal types. -/
abbrev vArg (c : Dev nD) : S2x16x2048x64.Idx → EReal := (m ((c : Thread nD τ).loc main_arg1))
abbrev sArg (c : Dev nD) : S2x1x1x2048.Idx → EReal := (m ((c : Thread nD τ).loc main_arg4))

/-- The four input blocks at a point, at their literal types. -/
abbrev qblk (c : Dev nD) (t : Fin cfg0.N) : Vec Ideal S1x16x128x64 .bf16 := iblk m c 0 t
abbrev kblk (c : Dev nD) (t : Fin cfg0.N) : Vec Ideal S1x16x2048x64 .bf16 := iblk m c 1 t
abbrev vblk (c : Dev nD) (t : Fin cfg0.N) : Vec Ideal S1x16x2048x65 .bf16 := iblk m c 2 t
abbrev mblk (c : Dev nD) (t : Fin cfg0.N) : Vec Ideal S1x1x128x2048 .f32 := iblk m c 3 t

/-! ## The index maps, decided over the 32 grid points -/

theorem idx_out : ∀ t : Fin cfg0.N, win0_4.index t (0 : Fin 4) < 2 ∧ win0_4.index t (1 : Fin 4) = 0
    ∧ win0_4.index t (2 : Fin 4) < 16 ∧ win0_4.index t (3 : Fin 4) = 0 :=
  (by decide +kernel : ∀ t : Fin grid0.N, _)

theorem idx_query : ∀ t : Fin cfg0.N, win0_0.index t (0 : Fin 4) = win0_4.index t (0 : Fin 4) ∧ win0_0.index t (1 : Fin 4) = 0
    ∧ win0_0.index t (2 : Fin 4) = win0_4.index t (2 : Fin 4) ∧ win0_0.index t (3 : Fin 4) = 0 :=
  (by decide +kernel : ∀ t : Fin grid0.N, _)

theorem idx_key : ∀ t : Fin cfg0.N, win0_1.index t (0 : Fin 4) = win0_4.index t (0 : Fin 4) ∧ win0_1.index t (1 : Fin 4) = 0
    ∧ win0_1.index t (2 : Fin 4) = 0 ∧ win0_1.index t (3 : Fin 4) = 0 :=
  (by decide +kernel : ∀ t : Fin grid0.N, _)

theorem idx_value : ∀ t : Fin cfg0.N, win0_2.index t (0 : Fin 4) = win0_4.index t (0 : Fin 4) ∧ win0_2.index t (1 : Fin 4) = 0
    ∧ win0_2.index t (2 : Fin 4) = 0 ∧ win0_2.index t (3 : Fin 4) = 0 :=
  (by decide +kernel : ∀ t : Fin grid0.N, _)

theorem idx_mask : ∀ t : Fin cfg0.N, win0_3.index t (0 : Fin 4) = win0_4.index t (0 : Fin 4) ∧ win0_3.index t (1 : Fin 4) = 0
    ∧ win0_3.index t (2 : Fin 4) = win0_4.index t (2 : Fin 4) ∧ win0_3.index t (3 : Fin 4) = 0 :=
  (by decide +kernel : ∀ t : Fin grid0.N, _)

/-- Every (batch, query tile) is some point's output block. -/
theorem idx_onto : ∀ (b : Fin 2) (qi : Fin 16), ∃ t : Fin cfg0.N, win0_4.index t = ![b.val, 0, qi.val, 0] :=
  (by decide +kernel : ∀ (b : Fin 2) (qi : Fin 16), ∃ t : Fin grid0.N, win0_4.index t = ![b.val, 0, qi.val, 0])

/-! ## The input blocks read where the output block says -/

theorem query_read (c : Dev nD) (t : Fin cfg0.N) (b : Fin 2) (qq : Fin 2048) (h : Fin 16) (r : Fin 128) (e : Fin 64)
    (hb : b.val = win0_4.index t (0 : Fin 4)) (hq : qq.val = win0_4.index t (2 : Fin 4) * 128 + r.val) :
    qblk m c t (ix4 (0 : Fin 1) h r e) = (m ((c : Thread nD τ).loc main_arg0)) (ix4 b h qq e) := by
  obtain ⟨e0, e1, e2, e3⟩ := idx_query t
  show V m c main_v0 (((cfg0.win 0).blk t).view.emb (ix4 (0 : Fin 1) h r e)) = _
  rw [Host.V_query]
  refine congrArg _ (funext fun a => Fin.ext ?_)
  match a with
  | ⟨0, _⟩ => show win0_0.index t (0 : Fin 4) * 1 + 1 * 0 = b.val; omega
  | ⟨1, _⟩ => show win0_0.index t (1 : Fin 4) * 16 + 1 * h.val = h.val; omega
  | ⟨2, _⟩ => show win0_0.index t (2 : Fin 4) * 128 + 1 * r.val = qq.val; omega
  | ⟨3, _⟩ => show win0_0.index t (3 : Fin 4) * 64 + 1 * e.val = e.val; omega

theorem key_read (c : Dev nD) (t : Fin cfg0.N) (b : Fin 2) (h : Fin 16) (j : Fin 2048) (e : Fin 64)
    (hb : b.val = win0_4.index t (0 : Fin 4)) :
    kblk m c t (ix4 (0 : Fin 1) h j e) = (m ((c : Thread nD τ).loc main_arg2)) (ix4 b h j e) := by
  obtain ⟨e0, e1, e2, e3⟩ := idx_key t
  show V m c main_v1 (((cfg0.win 1).blk t).view.emb (ix4 (0 : Fin 1) h j e)) = _
  rw [Host.V_key]
  refine congrArg _ (funext fun a => Fin.ext ?_)
  match a with
  | ⟨0, _⟩ => show win0_1.index t (0 : Fin 4) * 1 + 1 * 0 = b.val; omega
  | ⟨1, _⟩ => show win0_1.index t (1 : Fin 4) * 16 + 1 * h.val = h.val; omega
  | ⟨2, _⟩ => show win0_1.index t (2 : Fin 4) * 2048 + 1 * j.val = j.val; omega
  | ⟨3, _⟩ => show win0_1.index t (3 : Fin 4) * 64 + 1 * e.val = e.val; omega

theorem mask_read (c : Dev nD) (t : Fin cfg0.N) (b : Fin 2) (qq : Fin 2048) (r : Fin 128) (j : Fin 2048)
    (hb : b.val = win0_4.index t (0 : Fin 4)) (hq : qq.val = win0_4.index t (2 : Fin 4) * 128 + r.val) :
    mblk m c t (ix4 (0 : Fin 1) (0 : Fin 1) r j) = (m ((c : Thread nD τ).loc main_arg3)) (ix4 b (0 : Fin 1) qq j) := by
  obtain ⟨e0, e1, e2, e3⟩ := idx_mask t
  show V m c main_arg3 (((cfg0.win 3).blk t).view.emb (ix4 (0 : Fin 1) (0 : Fin 1) r j)) = _
  rw [V_main_arg3]
  refine congrArg _ (funext fun a => Fin.ext ?_)
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 128 + 1 * r.val = qq.val; omega
  | ⟨3, _⟩ => show win0_3.index t (3 : Fin 4) * 2048 + 1 * j.val = j.val; omega

/-- The staged value block reads the augmented value array at batch b. -/
theorem value_read (c : Dev nD) (t : Fin cfg0.N) (b : Fin 2) (h : Fin 16) (j : Fin 2048) (e : Fin 65)
    (hb : b.val = win0_4.index t (0 : Fin 4)) :
    vblk m c t (ix4 (0 : Fin 1) h j e) = (V m c main_v7 : S2x16x2048x65.Idx → EReal) (ix4 b h j e) := by
  obtain ⟨e0, e1, e2, e3⟩ := idx_value t
  show V m c main_v7 (((cfg0.win 2).blk t).view.emb (ix4 (0 : Fin 1) h j e)) = _
  refine congrArg _ (funext fun a => Fin.ext ?_)
  match a with
  | ⟨0, _⟩ => show win0_2.index t (0 : Fin 4) * 1 + 1 * 0 = b.val; omega
  | ⟨1, _⟩ => show win0_2.index t (1 : Fin 4) * 16 + 1 * h.val = h.val; omega
  | ⟨2, _⟩ => show win0_2.index t (2 : Fin 4) * 2048 + 1 * j.val = j.val; omega
  | ⟨3, _⟩ => show win0_2.index t (3 : Fin 4) * 65 + 1 * e.val = e.val; omega

/-! ## What a point writes back -/

/-- The block function of the point's input blocks is the kernel's result function on the point's output block. -/
theorem block_eq (c : Dev nD) (t : Fin cfg0.N) (y : S1x16x128x64.Idx) :
    Pieces.blockFn (qblk m c t) (kblk m c t) (vblk m c t) (mblk m c t) y
      = result m c (((cfg0.win 4).blk t).view.emb y) := by
  obtain ⟨u, h, r, d, rfl⟩ : ∃ (u : Fin 1) (h : Fin 16) (r : Fin 128) (d : Fin 64), y = ix4 u h r d :=
    ⟨y 0, y 1, y 2, y 3, eq_ix4 y⟩
  obtain ⟨fb, f1, fq, f3⟩ := idx_out t
  have hu : u.val = 0 := by omega
  have hi : ((cfg0.win 4).blk t).view.emb (ix4 u h r d)
      = ix4 (⟨win0_4.index t (0 : Fin 4), fb⟩ : Fin 2) h (⟨win0_4.index t (2 : Fin 4) * 128 + r.val, by omega⟩ : Fin 2048) d :=
    funext fun a => Fin.ext (by
      match a with
      | ⟨0, _⟩ => show win0_4.index t (0 : Fin 4) * 1 + 1 * u.val = win0_4.index t (0 : Fin 4); omega
      | ⟨1, _⟩ => show win0_4.index t (1 : Fin 4) * 16 + 1 * h.val = h.val; omega
      | ⟨2, _⟩ => show win0_4.index t (2 : Fin 4) * 128 + 1 * r.val = win0_4.index t (2 : Fin 4) * 128 + r.val; omega
      | ⟨3, _⟩ => show win0_4.index t (3 : Fin 4) * 64 + 1 * d.val = d.val; omega)
  rw [hi]
  show Pieces.blockAt (qblk m c t) (kblk m c t) (vblk m c t) (mblk m c t) h r d
    = Spec.kernelAt (m ((c : Thread nD τ).loc main_arg0)) (vArg m c) (m ((c : Thread nD τ).loc main_arg2)) (m ((c : Thread nD τ).loc main_arg3)) (sArg m c)
        (⟨win0_4.index t (0 : Fin 4), fb⟩ : Fin 2) h (⟨win0_4.index t (2 : Fin 4) * 128 + r.val, by omega⟩ : Fin 2048) d
  have hq : ∀ e : Fin 64, qblk m c t (ix4 (0 : Fin 1) h r e) = (m ((c : Thread nD τ).loc main_arg0)) (ix4 (⟨win0_4.index t (0 : Fin 4), fb⟩ : Fin 2) h (⟨win0_4.index t (2 : Fin 4) * 128 + r.val, by omega⟩ : Fin 2048) e) :=
    fun e => query_read m c t _ _ h r e rfl rfl
  have hk : ∀ (j : Fin 2048) (e : Fin 64), kblk m c t (ix4 (0 : Fin 1) h j e) = (m ((c : Thread nD τ).loc main_arg2)) (ix4 (⟨win0_4.index t (0 : Fin 4), fb⟩ : Fin 2) h j e) :=
    fun j e => key_read m c t _ h j e rfl
  have hm : ∀ j : Fin 2048, mblk m c t (ix4 (0 : Fin 1) (0 : Fin 1) r j) = (m ((c : Thread nD τ).loc main_arg3)) (ix4 (⟨win0_4.index t (0 : Fin 4), fb⟩ : Fin 2) (0 : Fin 1) (⟨win0_4.index t (2 : Fin 4) * 128 + r.val, by omega⟩ : Fin 2048) j) :=
    fun j => mask_read m c t _ _ r j rfl rfl
  have hv : ∀ j : Fin 2048, vblk m c t (ix4 (0 : Fin 1) h j (⟨d.val, by omega⟩ : Fin 65))
      = vArg m c (ix4 (⟨win0_4.index t (0 : Fin 4), fb⟩ : Fin 2) h j d) * sArg m c (ix4 (⟨win0_4.index t (0 : Fin 4), fb⟩ : Fin 2) (0 : Fin 1) (0 : Fin 1) j) :=
    fun j => by rw [value_read m c t ⟨win0_4.index t (0 : Fin 4), fb⟩ h j _ rfl, Host.V_value, Host.value_at]
  have h1 : ∀ j : Fin 2048, vblk m c t (ix4 (0 : Fin 1) h j (⟨64, by omega⟩ : Fin 65)) = Ideal.ofBits .f32 0x3F800000#32 :=
    fun j => by rw [value_read m c t ⟨win0_4.index t (0 : Fin 4), fb⟩ h j _ rfl, Host.V_value, Host.ones_at]
  unfold Pieces.blockAt Spec.kernelAt
  simp only [hq, hk, hm, hv, h1]

/-- WHAT POINT t WRITES BACK is block t of the kernel's result function. -/
theorem flushed_eq (c : Dev nD) (t : Fin cfg0.N) :
    (dats m 0 c).flushed 4 t = ((cfg0.win 4).blk t).view.read (Elt Ideal) (result m c) := by
  rw [Value.flushed4_A]
  have e := RunValue.out_block c (grid0.coords t) (ms0_0 t) (hs0_0 t) (ms0_1 t) (hs0_1 t) (ms0_2 t) (hs0_2 t) (ms0_3 t) (hs0_3 t)
    (ms0_4 t) (hs0_4 t) (qblk m c t) (kblk m c t) (vblk m c t) (mblk m c t)
  funext y
  exact (congrFun e y).trans (block_eq m c t y)

/-! ## The cover -/

theorem mem_blk (t : Fin cfg0.N) (i : S2x16x2048x64.Idx) :
    i ∈ ((cfg0.win 4).blk t).view.set ↔ ∀ a : Fin 4, win0_4.index t a * S1x16x128x64.size a ≤ (i a).val
      ∧ (i a).val < win0_4.index t a * S1x16x128x64.size a + S1x16x128x64.size a := by
  show i ∈ ((View.whole main_v8).slice (win0_4.rect t)).set ↔ _
  rw [View.set_slice_whole, Rect.mem_set_unit]
  exact Iff.rfl

/-- Every index of the result array is in the output block of the point (batch, row / 128). -/
theorem cover (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 128, by omega⟩
  have q0 : win0_4.index t (0 : Fin 4) = (i 0).val := congrFun ht 0
  have q1 : win0_4.index t (1 : Fin 4) = 0 := congrFun ht 1
  have q2 : win0_4.index t (2 : Fin 4) = (i 2).val / 128 := congrFun ht 2
  have q3 : win0_4.index t (3 : Fin 4) = 0 := congrFun ht 3
  refine ⟨t, flush0_4 t, (mem_blk t i).2 fun a => ?_⟩
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 128 ≤ (i 2).val ∧ (i 2).val < win0_4.index t (2 : Fin 4) * 128 + 128; omega
  | ⟨3, _⟩ => show win0_4.index t (3 : Fin 4) * 64 ≤ (i 3).val ∧ (i 3).val < win0_4.index t (3 : Fin 4) * 64 + 64; omega

/-- THE RESULT ARRAY after the run is the kernel's result function of the arguments. -/
theorem final (c : Dev nD) : (dats m 0 c).arrAt 4 cfg0.N = result m c :=
  (dats m 0 c).arrAt_eq_of_cover 4 (result m c) (fun t _ => flushed_eq m c t) cover

/-- The kernel's run, with its result named. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Attn.Blocks

end
-- ==== Proof.RefValue.lean ====
/-
  The reference's result read at an index.  Entry (b, h, q, d) of the result is the reference's row function: the
  scores of query row (b, h, q) — its product with every key of (b, h) over √64, plus mask row (b, q) — exponentiated
  less their maximum, each divided by zero plus their sum, multiplied by the sequence mask of batch b, and summed
  against value column d of (b, h).
-/
import proofs.«426825_j22840636080983_3_alg».proof.Proof.Gen.ReferenceIdeal.Read
import proofs.«426825_j22840636080983_3_alg».proof.Proof.RowLaw
import proofs.«426825_j22840636080983_3_alg».proof.Proof.Consts
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx

variable (x0 x1 x2 : (⟨S2x16x2048x64, .f32⟩ : BufTy).Contents (Elt Ideal))
  (x3 : (⟨S2x1x2048x2048, .f32⟩ : BufTy).Contents (Elt Ideal)) (x4 : (⟨S2x1x1x2048, .f32⟩ : BufTy).Contents (Elt Ideal))

/-- The scores of query row (b, h, q). -/
def rowScores (b : Fin 2) (h : Fin 16) (q : Fin 2048) : Fin 2048 → EReal :=
  Attn.scoreR (Ideal.sqrt (Ideal.ofBits .f32 0x42800000#32)) (fun e : Fin 64 => x0 (ix4 b h q e))
    (fun (j : Fin 2048) (e : Fin 64) => x2 (ix4 b h j e)) (fun j : Fin 2048 => x3 (ix4 b (0 : Fin 1) q j))

/-- The scores before the softmax, at (b, h, q, j). -/
theorem scores_at (b : Fin 2) (h : Fin 16) (q : Fin 2048) (j : Fin 2048) :
    val_main_v5 (F := Ideal) x0 x2 x3 (ix4 b h q j) = rowScores x0 x2 x3 b h q j := by
  have el : ∀ e : Fin 64, lidx_main_v0 (ix4 b h q j) e = ix4 b h q e := fun e => funext fun a => Fin.ext (by
    match a with | ⟨0, _⟩ => rfl | ⟨1, _⟩ => rfl | ⟨2, _⟩ => rfl | ⟨3, _⟩ => rfl)
  have er : ∀ e : Fin 64, ridx_main_v0 (ix4 b h q j) e = ix4 b h j e := fun e => funext fun a => Fin.ext (by
    match a with | ⟨0, _⟩ => rfl | ⟨1, _⟩ => rfl | ⟨2, _⟩ => rfl | ⟨3, _⟩ => rfl)
  have em : idx_main_v4 (ix4 b h q j) = ix4 b (0 : Fin 1) q j := funext fun a => Fin.ext (by
    match a with | ⟨0, _⟩ => rfl | ⟨1, _⟩ => rfl | ⟨2, _⟩ => rfl | ⟨3, _⟩ => rfl)
  rw [val_main_v5_apply, val_main_v3_apply, val_main_v0_apply, val_main_v2_apply, val_main_v1_apply, val_main_cst_apply,
    val_main_v4_apply, em]
  simp only [el, er]
  rfl

/-- The index a reduction over the key axis puts back at (b, h, q) and key j is (b, h, q, j). -/
theorem lift_keys (hr : S2x16x2048x2048.Reduces [3] S2x16x2048) (b : Fin 2) (h : Fin 16) (q : Fin 2048) (j : Fin 2048) :
    hr.lift (ix3 b h q) j = ix4 b h q j :=
  funext fun a => Fin.ext (by
    match a with | ⟨0, _⟩ => rfl | ⟨1, _⟩ => rfl | ⟨2, _⟩ => rfl | ⟨3, _⟩ => rfl)

/-- The maximum the softmax subtracts, at (b, h, q): the row maximum of the scores. -/
theorem max_at (b : Fin 2) (h : Fin 16) (q : Fin 2048) :
    val_main_v8 (F := Ideal) x0 x2 x3 (ix3 b h q) = Attn.rowMax (rowScores x0 x2 x3 b h q) := by
  have hr : S2x16x2048x2048.Reduces [3] S2x16x2048 := by decide
  rw [val_main_v8_apply, val_main_v7_apply, val_main_cst_1_apply]
  unfold val_main_v6
  rw [Host.reduce_eq_fold_single (FloatOps.maximumf (F := Ideal) (φ := .f32)) _ _ reducesTo_S2x16x2048x2048_S2x16x2048_d3 hr h_S_,
    val_main_cst_0_apply]
  have hf : (val_main_v5 (F := Ideal) x0 x2 x3 ∘ hr.lift (ix3 b h q)) = rowScores x0 x2 x3 b h q := funext fun (j : Fin 2048) => by
    show val_main_v5 (F := Ideal) x0 x2 x3 (hr.lift (ix3 b h q) j) = rowScores x0 x2 x3 b h q j
    rw [lift_keys hr b h q j, scores_at]
  rw [hf]
  show max (Ideal.ofBits .f32 0xFF800000#32) (Finset.fold max (Ideal.ofBits .f32 0xFF800000#32) (rowScores x0 x2 x3 b h q) Finset.univ) = _
  rw [Consts.ofBits_neg_inf]
  exact max_eq_right bot_le

/-- The exponentials, at (b, h, q, j). -/
theorem exp_at (b : Fin 2) (h : Fin 16) (q : Fin 2048) (j : Fin 2048) :
    val_main_v12 (F := Ideal) x0 x2 x3 (ix4 b h q j)
      = Ideal.exp (rowScores x0 x2 x3 b h q j - Attn.rowMax (rowScores x0 x2 x3 b h q)) := by
  have e10 : idx_main_v10 (ix4 b h q j) = ix4 b h q (0 : Fin 1) := funext fun a => Fin.ext (by
    match a with | ⟨0, _⟩ => rfl | ⟨1, _⟩ => rfl | ⟨2, _⟩ => rfl | ⟨3, _⟩ => rfl)
  have e9 : idx_main_v9 (ix4 b h q (0 : Fin 1)) = ix3 b h q := funext fun a => Fin.ext (by
    match a with | ⟨0, _⟩ => rfl | ⟨1, _⟩ => rfl | ⟨2, _⟩ => rfl)
  rw [val_main_v12_apply, val_main_v11_apply, val_main_v10_apply, e10, val_main_v9_apply, e9, scores_at, max_at]
  rfl

/-- The softmax denominator, at (b, h, q). -/
theorem sum_at (b : Fin 2) (h : Fin 16) (q : Fin 2048) :
    val_main_v13 (F := Ideal) x0 x2 x3 (ix3 b h q)
      = Ideal.ofBits .f32 0x00000000#32
        + ∑ j : Fin 2048, Ideal.exp (rowScores x0 x2 x3 b h q j - Attn.rowMax (rowScores x0 x2 x3 b h q)) := by
  have e13 : ∀ j : Fin 2048, idx_main_v13 (ix3 b h q) j = ix4 b h q j := fun j => funext fun a => Fin.ext (by
    match a with | ⟨0, _⟩ => rfl | ⟨1, _⟩ => rfl | ⟨2, _⟩ => rfl | ⟨3, _⟩ => rfl)
  rw [val_main_v13_apply, val_main_cst_2_apply]
  simp only [e13, exp_at]
  rfl

/-- THE RESULT AT AN INDEX. -/
theorem result_at (b : Fin 2) (h : Fin 16) (q : Fin 2048) (d : Fin 64) :
    val_main_v19 (F := Ideal) x0 x1 x2 x3 x4 (ix4 b h q d)
      = Attn.attnR (Ideal.ofBits .f32 0x00000000#32) (rowScores x0 x2 x3 b h q)
          (fun j : Fin 2048 => x4 (ix4 b (0 : Fin 1) (0 : Fin 1) j)) (fun j : Fin 2048 => x1 (ix4 b h j d)) := by
  have el : ∀ j : Fin 2048, lidx_main_v19 (ix4 b h q d) j = ix4 b h q j := fun j => funext fun a => Fin.ext (by
    match a with | ⟨0, _⟩ => rfl | ⟨1, _⟩ => rfl | ⟨2, _⟩ => rfl | ⟨3, _⟩ => rfl)
  have er : ∀ j : Fin 2048, ridx_main_v19 (ix4 b h q d) j = ix4 b h j d := fun j => funext fun a => Fin.ext (by
    match a with | ⟨0, _⟩ => rfl | ⟨1, _⟩ => rfl | ⟨2, _⟩ => rfl | ⟨3, _⟩ => rfl)
  have e15 : ∀ j : Fin 2048, idx_main_v15 (ix4 b h q j) = ix4 b h q (0 : Fin 1) := fun j => funext fun a => Fin.ext (by
    match a with | ⟨0, _⟩ => rfl | ⟨1, _⟩ => rfl | ⟨2, _⟩ => rfl | ⟨3, _⟩ => rfl)
  have e14 : idx_main_v14 (ix4 b h q (0 : Fin 1)) = ix3 b h q := funext fun a => Fin.ext (by
    match a with | ⟨0, _⟩ => rfl | ⟨1, _⟩ => rfl | ⟨2, _⟩ => rfl)
  have e17 : ∀ j : Fin 2048, idx_main_v17 (ix4 b h q j) = ix4 b (0 : Fin 1) (0 : Fin 1) j := fun j => funext fun a => Fin.ext (by
    match a with | ⟨0, _⟩ => rfl | ⟨1, _⟩ => rfl | ⟨2, _⟩ => rfl | ⟨3, _⟩ => rfl)
  rw [val_main_v19_apply]
  unfold Attn.attnR
  refine Finset.sum_congr rfl fun j _ => ?_
  rw [el, er, val_main_v18_apply, val_main_v16_apply, val_main_v17_apply, e17, val_main_v15_apply, e15, val_main_v14_apply, e14,
    exp_at, sum_at]
  rfl

end Cert.Attn.Ref

end
-- ==== Proof.Finite.lean ====
/-
  The precondition read back.  It is the conjunction, over the five arguments, of "every entry x has |x| < +∞";
  on the extended reals that says every entry of every argument is a real number.
-/
import proofs.«426825_j22840636080983_3_alg».proof.Proof.Gen.Pre_finite_inputs
import proofs.«426825_j22840636080983_3_alg».proof.Proof.Consts
import Idealize.ShloMosaic.Lib.ReduceAll
import Idealize.ShloMosaic.Lib.ValueIdx
import Idealize.ShloMosaic.PureOps.Ideal.Laws

noncomputable section

namespace Cert.Attn.Finite

open Cert.Pre_finite_inputs Idealize.ShloMosaic Idealize.ShloMosaic.ValueIdx

/-- The scalar shape has one index. -/
instance scalarIdx_subsingleton : Subsingleton S_.Idx := ⟨fun _ _ => funext fun d => d.elim0⟩

/-- An extended real whose magnitude max(x, −x) tests below +∞ is a real: at either infinity the magnitude is +∞. -/
theorem real_of_abs_lt_inf (x : EReal)
    (h : Ideal.cmp .olt (max x (-x)) (Ideal.ofBits .f32 0x7F800000#32) = 1#1) : ∃ r : ℝ, x = (r : EReal) := by
  rw [Consts.ofBits_pos_inf] at h
  induction x using EReal.rec with
  | bot => simp [Ideal.cmp] at h
  | coe r => exact ⟨r, rfl⟩
  | top => simp [Ideal.cmp] at h

/-- Under the precondition every entry of every argument is a real number. -/
theorem reals_of_pre (a0 a1 a2 : FVec Ideal S2x16x2048x64 .f32) (a3 : FVec Ideal S2x1x2048x2048 .f32)
    (a4 : FVec Ideal S2x1x1x2048 .f32) (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_abs_lt_inf (a0 i) (Host.reduce_andi_all _ _ _ _ _ h0 i),
    fun i => real_of_abs_lt_inf (a1 i) (Host.reduce_andi_all _ _ _ _ _ h1 i),
    fun i => real_of_abs_lt_inf (a2 i) (Host.reduce_andi_all _ _ _ _ _ h2 i),
    fun i => real_of_abs_lt_inf (a3 i) (Host.reduce_andi_all _ _ _ _ _ h3 i),
    fun i => real_of_abs_lt_inf (a4 i) (Host.reduce_andi_all _ _ _ _ _ h4 i)⟩

end Cert.Attn.Finite

end
-- ==== Proof.lean ====
/-
  Scaled dot-product attention over B = 2 batches, H = 16 heads, S = 2048 positions and D = 64 features, with an
  additive attention mask per (batch, query, key) and a multiplicative sequence mask per (batch, key) applied AFTER
  the softmax, without renormalisation.

  The reference computes, for every (b, h, q, d),
      ∑ₖ ( exp(s_k − max s) / (0 + ∑ exp(s − max s)) · seq_k ) · v_{k,d},     s_k = (q · k_k) / √64 + mask_{q,k}.
  The kernel folds the sequence mask into the values on the host (v_{k,d} · seq_k), appends a column of ones, scales
  the queries by 1/8 inside the body, and for each of 32 grid points (batch, tile of 128 query rows) loops over the 16
  heads: scores (q/8)·kᵀ + mask, weights exp(s − max s), one product of the weights with the 65 augmented value
  columns, and the first 64 columns divided by the last.  That is
      (∑ₖ e_k · (v_{k,d} · seq_k)) / (∑ₖ e_k · 1),     e_k = exp(s'_k − max s'),   s'_k = (q/8) · k_k + mask_{q,k}.

  On the extended reals a change of float format is the identity, and for finite inputs every quantity above is a
  real number: √64 = 8, so s' = s; the sum of the weights is a positive real; and dividing a sum by it is dividing
  each term (RowLaw).  The two results are the same array.

  The pieces: Payload reads the body's one stored value at an index; Pieces and RunValue show that the 16 trips'
  slabs are one function of the block index and cover the block; HostPrefix reads the arrays the region stages;
  Blocks goes from the 32 written-back blocks to the whole result array; RefValue reads the reference's result at an
  index; Finite reads the precondition; Spec states both results entry by entry and joins them.
-/
import proofs.«426825_j22840636080983_3_alg».proof.Defs
import proofs.«426825_j22840636080983_3_alg».proof.Proof.Gen.Kernel
import proofs.«426825_j22840636080983_3_alg».proof.Proof.Gen.Kernel.Skeleton
import proofs.«426825_j22840636080983_3_alg».proof.Proof.Gen.Kernel.Loops
import proofs.«426825_j22840636080983_3_alg».proof.Proof.Gen.Kernel.Launch
import proofs.«426825_j22840636080983_3_alg».proof.Proof.Gen.Kernel.Points
import proofs.«426825_j22840636080983_3_alg».proof.Proof.Gen.Kernel.Frame
import proofs.«426825_j22840636080983_3_alg».proof.Proof.Gen.KernelIdeal
import proofs.«426825_j22840636080983_3_alg».proof.Proof.Gen.KernelIdeal.Skeleton
import proofs.«426825_j22840636080983_3_alg».proof.Proof.Gen.KernelIdeal.Loops
import proofs.«426825_j22840636080983_3_alg».proof.Proof.Gen.KernelIdeal.Launch
import proofs.«426825_j22840636080983_3_alg».proof.Proof.Gen.KernelIdeal.Points
import proofs.«426825_j22840636080983_3_alg».proof.Proof.Gen.KernelIdeal.Frame
import proofs.«426825_j22840636080983_3_alg».proof.Proof.Gen.ReferenceIdeal
import proofs.«426825_j22840636080983_3_alg».proof.Proof.Gen.Pre_finite_inputs
import proofs.«426825_j22840636080983_3_alg».proof.Proof.Gen.KernelIdeal.Value
import proofs.«426825_j22840636080983_3_alg».proof.Proof.Gen.ReferenceIdeal.Run
import proofs.«426825_j22840636080983_3_alg».proof.Proof.Gen.ReferenceIdeal.Read
import proofs.«426825_j22840636080983_3_alg».proof.Proof.Blocks
import proofs.«426825_j22840636080983_3_alg».proof.Proof.RefValue
import proofs.«426825_j22840636080983_3_alg».proof.Proof.Finite
import proofs.«426825_j22840636080983_3_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a sequence of host operations: it runs, and no operation writes an argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- For finite inputs both programs end with the same result array: the kernel's is its result function of the
    arguments (Blocks), the reference's is its composed term, which entry by entry is the reference's row function
    (RefValue), and for real arguments the two agree at every entry (Spec). -/
theorem algebraic : Cert.algebraic_KernelIdeal_ReferenceIdeal := by
  intro m ρ m' ρ' hpre hagree
  refine ⟨fun c => Cert.Attn.Blocks.result m c, Cert.Attn.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2]
  obtain ⟨h0, h1, h2, h3, h4⟩ := Cert.Attn.Finite.reals_of_pre _ _ _ _ _ (hpre c)
  funext i
  obtain ⟨b, h, q, d, rfl⟩ : ∃ (b : Fin 2) (h : Fin 16) (q : Fin 2048) (d : Fin 64), i = ix4 b h q d :=
    ⟨i 0, i 1, i 2, i 3, eq_ix4 i⟩
  rw [Cert.Attn.Ref.result_at]
  exact (Cert.Attn.Spec.kernelAt_eq_refAt _ _ _ _ _ h0 h1 h2 h3 h4 b h q d).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
